-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x32 : Shape := ⟨3, ![4096, 64, 32]⟩
abbrev S192x128 : Shape := ⟨2, ![192, 128]⟩
abbrev S1x128 : Shape := ⟨2, ![1, 128]⟩
abbrev S384x128 : Shape := ⟨2, ![384, 128]⟩
abbrev S4096x256 : Shape := ⟨2, ![4096, 256]⟩
abbrev S1x256 : Shape := ⟨2, ![1, 256]⟩
abbrev S256x128 : Shape := ⟨2, ![256, 128]⟩
abbrev S128x128 : Shape := ⟨2, ![128, 128]⟩
abbrev S_ : Shape := ⟨0, ![]⟩

class Facts : Prop where
  bcast_S_S4096x64x32 : S_.BroadcastsInDim S4096x64x32 (![] : Fin 0 → Fin S4096x64x32.rank)
  reducesTo_S4096x64x32_S_d0_1_2 : S4096x64x32.ReducesTo [0, 1, 2] S_
  h_S_ : 0 < S_.numel
  bcast_S_S192x128 : S_.BroadcastsInDim S192x128 (![] : Fin 0 → Fin S192x128.rank)
  reducesTo_S192x128_S_d0_1 : S192x128.ReducesTo [0, 1] S_
  bcast_S_S1x128 : S_.BroadcastsInDim S1x128 (![] : Fin 0 → Fin S1x128.rank)
  reducesTo_S1x128_S_d0_1 : S1x128.ReducesTo [0, 1] S_
  bcast_S_S384x128 : S_.BroadcastsInDim S384x128 (![] : Fin 0 → Fin S384x128.rank)
  reducesTo_S384x128_S_d0_1 : S384x128.ReducesTo [0, 1] S_
  bcast_S_S4096x256 : S_.BroadcastsInDim S4096x256 (![] : Fin 0 → Fin S4096x256.rank)
  reducesTo_S4096x256_S_d0_1 : S4096x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  main_v53

def fn_part2 {F : FTy → Type} [FloatOps F] (main_arg7 : FVec F S256x128 .f32) (main_arg8 : FVec F S1x128 .f32) (main_arg9 : FVec F S128x128 .f32) (main_arg10 : FVec F S1x128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_v48 main_v49 main_v50

def fn_part1 {F : FTy → Type} [FloatOps F] (main_arg4 : FVec F S1x128 .f32) (main_arg5 : FVec F S4096x256 .f32) (main_arg6 : FVec F S1x256 .f32) (main_arg7 : FVec F S256x128 .f32) (main_arg8 : FVec F S1x128 .f32) (main_arg9 : FVec F S128x128 .f32) (main_arg10 : FVec F S1x128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x64x32 .f32) (main_arg1 : FVec F S192x128 .f32) (main_arg2 : FVec F S1x128 .f32) (main_arg3 : FVec F S384x128 .f32) (main_arg4 : FVec F S1x128 .f32) (main_arg5 : FVec F S4096x256 .f32) (main_arg6 : FVec F S1x256 .f32) (main_arg7 : FVec F S256x128 .f32) (main_arg8 : FVec F S1x128 .f32) (main_arg9 : FVec F S128x128 .f32) (main_arg10 : FVec F S1x128 .f32) : IVec S_ 1 :=
  let main_v0 : FVec F S4096x64x32 .f32 := Host.absf main_arg0
  let main_cst : FVec F S_ .f32 := constant S_ .f32 0x7F800000#32
  let main_v1 : FVec F S4096x64x32 .f32 := broadcastInDim S4096x64x32 ![] bcast_S_S4096x64x32 main_cst
  let main_v2 : IVec S4096x64x32 1 := cmpf .olt main_v0 main_v1
  let main_c : IVec S_ 1 := constantI S_ 1 1#1
  let main_v3 : IVec S_ 1 := (fun x v => Host.reduce IntOp.andi x v reducesTo_S4096x64x32_S_d0_1_2 h_S_) main_v2 main_c
  let main_v4 : FVec F S192x128 .f32 := Host.absf main_arg1
  let main_cst_0 : FVec F S_ .f32 := constant S_ .f32 0x7F800000#32
  let main_v5 : FVec F S192x128 .f32 := broadcastInDim S192x128 ![] bcast_S_S192x128 main_cst_0
  let main_v6 : IVec S192x128 1 := cmpf .olt main_v4 main_v5
  let main_c_1 : IVec S_ 1 := constantI S_ 1 1#1
  let main_v7 : IVec S_ 1 := (fun x v => Host.reduce IntOp.andi x v reducesTo_S192x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_arg9 main_arg10 main_v13 main_v16
-- ==== Kernel.lean ====
abbrev S4096x64x32 : Shape := ⟨3, ![4096, 64, 32]⟩
abbrev S192x128 : Shape := ⟨2, ![192, 128]⟩
abbrev S1x128 : Shape := ⟨2, ![1, 128]⟩
abbrev S384x128 : Shape := ⟨2, ![384, 128]⟩
abbrev S4096x256 : Shape := ⟨2, ![4096, 256]⟩
abbrev S1x256 : Shape := ⟨2, ![1, 256]⟩
abbrev S256x128 : Shape := ⟨2, ![256, 128]⟩
abbrev S128x128 : Shape := ⟨2, ![128, 128]⟩
abbrev S32x4096x64 : Shape := ⟨3, ![32, 4096, 64]⟩
abbrev S128x384 : Shape := ⟨2, ![128, 384]⟩
abbrev S128x256 : Shape := ⟨2, ![128, 256]⟩
abbrev S128x1 : Shape := ⟨2, ![128, 1]⟩
abbrev S256x1 : Shape := ⟨2, ![256, 1]⟩
abbrev S4096x128 : Shape := ⟨2, ![4096, 128]⟩
abbrev S32x512x64 : Shape := ⟨3, ![32, 512, 64]⟩
abbrev S512x128 : Shape := ⟨2, ![512, 128]⟩
abbrev S16384x64 : Shape := ⟨2, ![16384, 64]⟩
abbrev S512x64 : Shape := ⟨2, ![512, 64]⟩
abbrev S17408x64 : Shape := ⟨2, ![17408, 64]⟩
abbrev S16384x192 : Shape := ⟨2, ![16384, 192]⟩
abbrev S128x16384 : Shape := ⟨2, ![128, 16384]⟩
abbrev S128x512 : Shape := ⟨2, ![128, 512]⟩
abbrev S128x17408 : Shape := ⟨2, ![128, 17408]⟩
abbrev S384x16384 : Shape := ⟨2, ![384, 16384]⟩
abbrev S4096x512 : Shape := ⟨2, ![4096, 512]⟩
abbrev S256x512 : Shape := ⟨2, ![256, 512]⟩

abbrev nBuf : Space → Nat
  | .hbm => 28
  | .vmem => 14
  | .smem => 0
  | _ => 0

abbrev bufTy : (tb : Table) → Fin (tcTables nBuf tb) → BufTy
  | .hbm, ⟨0, _⟩ => ⟨S4096x64x32, .f32⟩
  | .hbm, ⟨1, _⟩ => ⟨S192x128, .f32⟩
  | .hbm, ⟨2, _⟩ => ⟨S1x128, .f32⟩
  | .hbm, ⟨3, _⟩ => ⟨S384x128, .f32⟩
  | .hbm, ⟨4, _⟩ => ⟨S1x128, .f32⟩
  | .hbm, ⟨5, _⟩ => ⟨S4096x256, .f32⟩
  | .hbm, ⟨6, _⟩ => ⟨S1x256, .f32⟩
  | .hbm, ⟨7, _⟩ => ⟨S256x128, .f32⟩
  | .hbm, ⟨8, _⟩ => ⟨S1x128, .f32⟩
  | .hbm, ⟨9, _⟩ => ⟨S128x128, .f32⟩
  | .hbm, ⟨10, _⟩ => ⟨S1x128, .f32⟩
  | .hbm, ⟨11, _⟩ => ⟨S32x4096x64, .f32⟩
  | .hbm, ⟨12, _⟩ => ⟨S192x128, .bf16⟩
  | .hbm, ⟨13, _⟩ => ⟨S128x384, .f32⟩
  | .hbm, ⟨14, _⟩ => ⟨S128x384, .bf16⟩
  | .hbm, ⟨15, _⟩ => ⟨S4096x256, .bf16⟩
  | .hbm, ⟨16, _⟩ => ⟨S128x256, .f32⟩
  | .hbm, ⟨17, _⟩ => ⟨S128x256, .bf16⟩
  | .hbm, ⟨18, _⟩ => ⟨S128x128, .bf16⟩
  | .hbm, ⟨19, _⟩ => ⟨S128x1, .f32⟩
  | .hbm, ⟨20, _⟩ => ⟨S128x1, .bf16⟩
  | .hbm, ⟨21, _⟩ => ⟨S128x1, .f32⟩
  | .hbm, ⟨22, _⟩ => ⟨S128x1, .bf16⟩
  | .hbm, ⟨23, _⟩ => ⟨S256x1, .f32⟩
  | .hbm, ⟨24, _⟩ => ⟨S256x1, .bf16⟩
  | .hbm, ⟨25, _⟩ => ⟨S128x1, .f32⟩
  | .hbm, ⟨26, _⟩ => ⟨S128x1, .bf16⟩
  | .hbm, ⟨27, _⟩ => ⟨S4096x128, .f32⟩
  | .local _ .vmem, ⟨0, _⟩ => ⟨S32x512x64, .f32⟩
  | .local _ .vmem, ⟨1, _⟩ => ⟨S32x512x64, .f32⟩
  | .local _ .vmem, ⟨2, _⟩ => ⟨S192x128, .bf16⟩
  | .local _ .vmem, ⟨3, _⟩ => ⟨S128x1, .bf16⟩
  | .local _ .vmem, ⟨4, _⟩ => ⟨S128x384, .bf16⟩
  | .local _ .vmem, ⟨5, _⟩ => ⟨S128x1, .bf16⟩
  | .local _ .vmem, ⟨6, _⟩ => ⟨S4096x256, .bf16⟩
  | .local _ .vmem, ⟨7, _⟩ => ⟨S256x1, .bf16⟩
  | .local _ .vmem, ⟨8, _⟩ => ⟨S128x256, .bf16⟩
  | .local _ .vmem, ⟨9, _⟩ => ⟨S128x1, .bf16⟩
  | .local _ .vmem, ⟨10, _⟩ => ⟨S128x128, .bf16⟩
  | .local _ .vmem, ⟨11, _⟩ => ⟨S1x128, .f32⟩
  | .local _ .vmem, ⟨12, _⟩ => ⟨S512x128, .f32⟩
  | .local _ .vmem, ⟨13, _⟩ => ⟨S512x128, .f32⟩
  | _, _ => ⟨S4096x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x64x32_S32x4096x64_2_0_1 : S4096x64x32.Transposes [2, 0, 1] S32x4096x64
  bitsLt_bf16_f32 : FTy.bits .bf16 < FTy.bits .f32
  transposes_S384x128_S128x384_1_0 : S384x128.Transposes [1, 0] S128x384
  transposes_S256x128_S128x256_1_0 : S256x128.Transposes [1, 0] S128x256
  shapeCasts_S1x128_S128x1 : S1x128.ShapeCasts S128x1
  shapeCasts_S1x256_S256x1 : S1x256.ShapeCasts S256x1
  inb_S32x512x64_S32x512x64_0_0_0 : ∀ a, (![0, 0, 0] : Fin 3 → Nat) a + S32x512x64.size a ≤ S32x512x64.size a
  h_S32x512x64 : 0 < S32x512x64.numel
  shapeCasts_S32x512x64_S32x512x64 : S32x512x64.ShapeCasts S32x512x64
  shapeCasts_S32x512x64_S16384x64 : S32x512x64.ShapeCasts S16384x64
  concatenates_S512x64_S16384x64_S512x64_S17408x64_d0 : Shape.Concatenates [S512x64, S16384x64, S512x64] S17408x64 0
  slices_S17408x64_o0_0_S16384x64 : S17408x64.Slices ![0, 0] S16384x64
  slices_S17408x64_o512_0_S16384x64 : S17408x64.Slices ![512, 0] S16384x64
  slices_S17408x64_o1024_0_S16384x64 : S17408x64.Slices ![1024, 0] S16384x64
  concatenates_S16384x64_S16384x64_S16384x64_S16384x192_d1 : Shape.Concatenates [S16384x64, S16384x64, S16384x64] S16384x192 1
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  concatenates_S128x512_S128x16384_S128x512_S128x17408_d1 : Shape.Concatenates [S128x512, S128x16384, S128x512] S128x17408 1
  slices_S128x17408_o0_0_S128x16384 : S128x17408.Slices ![0, 0] S128x16384
  slices_S128x17408_o0_512_S128x16384 : S128x17408.Slices ![0, 512] S128x16384
  slices_S128x17408_o0_1024_S128x16384 : S128x17408.Slices ![0, 1024] S128x16384
  concatenates_S128x16384_S128x16384_S128x16384_S384x16384_d0 : Shape.Concatenates [S128x16384, S128x16384, S128x16384] S384x16384 0
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S128x16384_o0_0_S128x512 : S128x16384.Slices ![0, 0] S128x512
  slices_S128x16384_o0_512_S128x512 : S128x16384.Slices ![0, 512] S128x512
  slices_S128x16384_o0_1024_S128x512 : S128x16384.Slices ![0, 1024] S128x512
  slices_S128x16384_o0_1536_S128x512 : S128x16384.Slices ![0, 1536] S128x512
  slices_S128x16384_o0_2048_S128x512 : S128x16384.Slices ![0, 2048] S128x512
  slices_S128x16384_o0_2560_S128x512 : S128x16384.Slices ![0, 2560] S128x512
  slices_S128x16384_o0_3072_S128x512 : S128x16384.Slices ![0, 3072] S128x512
  slices_S128x16384_o0_3584_S128x512 : S128x16384.Slices ![0, 3584] S128x512
  slices_S128x16384_o0_4096_S128x512 : S128x16384.Slices ![0, 4096] S128x512
  slices_S128x16384_o0_4608_S128x512 : S128x16384.Slices ![0, 4608] S128x512
  slices_S128x16384_o0_5120_S128x512 : S128x16384.Slices ![0, 5120] S128x512
  slices_S128x16384_o0_5632_S128x512 : S128x16384.Slices ![0, 5632] S128x512
  slices_S128x16384_o0_6144_S128x512 : S128x16384.Slices ![0, 6144] S128x512
  slices_S128x16384_o0_6656_S128x512 : S128x16384.Slices ![0, 6656] S128x512
  slices_S128x16384_o0_7168_S128x512 : S128x16384.Slices ![0, 7168] S128x512
  slices_S128x16384_o0_7680_S128x512 : S128x16384.Slices ![0, 7680] S128x512
  slices_S128x16384_o0_8192_S128x512 : S128x16384.Slices ![0, 8192] S128x512
  slices_S128x16384_o0_8704_S128x512 : S128x16384.Slices ![0, 8704] S128x512
  slices_S128x16384_o0_9216_S128x512 : S128x16384.Slices ![0, 9216] S128x512
  slices_S128x16384_o0_9728_S128x512 : S128x16384.Slices ![0, 9728] S128x512
  slices_S128x16384_o0_10240_S128x512 : S128x16384.Slices ![0, 10240] S128x512
  slices_S128x16384_o0_10752_S128x512 : S128x16384.Slices ![0, 10752] S128x512
  slices_S128x16384_o0_11264_S128x512 : S128x16384.Slices ![0, 11264] S128x512
  slices_S128x16384_o0_11776_S128x512 : S128x16384.Slices ![0, 11776] S128x512
  slices_S128x16384_o0_12288_S128x512 : S128x16384.Slices ![0, 12288] S128x512
  slices_S128x16384_o0_12800_S128x512 : S128x16384.Slices ![0, 12800] S128x512
  slices_S128x16384_o0_13312_S128x512 : S128x16384.Slices ![0, 13312] S128x512
  slices_S128x16384_o0_13824_S128x512 : S128x16384.Slices ![0, 13824] S128x512
  slices_S128x16384_o0_14336_S128x512 : S128x16384.Slices ![0, 14336] S128x512
  slices_S128x16384_o0_14848_S128x512 : S128x16384.Slices ![0, 14848] S128x512
  slices_S128x16384_o0_15360_S128x512 : S128x16384.Slices ![0, 15360] S128x512
  slices_S128x16384_o0_15872_S128x512 : S128x16384.Slices ![0, 15872] S128x512
  concatenates_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S4096x512_d0 : Shape.Concatenates [S128x512, S128x512, S128x512, S128x512, S128x512, S128x512, S128x512, S128x512, S128x512, S128x512, S128x512, S128x512, S128x512, S128x512, S128x512, S128x512, S128x512, S128x512, S128x512, S128x512, S128x512, S128x512, S128x512, S128x512, S128x512, S128x512, S128x512, S128x512, S128x512, S128x512, S128x512, S128x512] S4096x512 0
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S128x1_S128x512 : S128x1.Broadcasts S128x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S192x128_S16384x192_S128x16384_0_1_1_0_n_n_wf : DotDims.WF S192x128 S16384x192 S128x16384 [0] [1] [1] [0] [] []
  dot_S128x384_S384x16384_S128x16384_1_0_0_1_n_n_wf : DotDims.WF S128x384 S384x16384 S128x16384 [1] [0] [0] [1] [] []
  dot_S4096x256_S4096x512_S256x512_0_0_1_1_n_n_wf : DotDims.WF S4096x256 S4096x512 S256x512 [0] [0] [1] [1] [] []
  dot_S128x256_S256x512_S128x512_1_0_0_1_n_n_wf : DotDims.WF S128x256 S256x512 S128x512 [1] [0] [0] [1] [] []
  dot_S128x512_S128x128_S512x128_0_0_1_1_n_n_wf : DotDims.WF S128x512 S128x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x64.size a ≤ S32x4096x64.size a
  hwx0_0 : ∀ i : grid0.Coords, EltTy.bits .f32 = 32 ∨ (Rect.block (s := S32x4096x64) S32x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .bf16 = 32 ∨ (Rect.block (s := S192x128) S192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .bf16 = 32 ∨ (Rect.block (s := S128x1) S128x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x256.size a
  hwx0_5 : ∀ i : grid0.Coords, EltTy.bits .bf16 = 32 ∨ (Rect.block (s := S4096x256) S4096x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .bf16 = 32 ∨ (Rect.block (s := S256x1) S256x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .bf16 = 32 ∨ (Rect.block (s := S128x1) S128x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S4096x128.size a
  hwx0_11 : ∀ i : grid0.Coords, EltTy.bits .f32 = 32 ∨ (Rect.block (s := S4096x128) S512x128.size (cc0_transform_11 i) (hinb0_11 i)).WholeWords (EltTy.packing .f32)

variable [Facts₀]

def dot_S192x128_S16384x192_S128x16384_0_1_1_0_n_n : DotDims S192x128 S16384x192 S128x16384 where
  lhsContracting := [0]
  rhsContracting := [1]
  lhsNonContracting := [1]
  rhsNonContracting := [0]
  lhsBatch := []
  rhsBatch := []
  wf := dot_S192x128_S16384x192_S128x16384_0_1_1_0_n_n_wf
def dot_S128x384_S384x16384_S128x16384_1_0_0_1_n_n : DotDims S128x384 S384x16384 S128x16384 where
  lhsContracting := [1]
  rhsContracting := [0]
  lhsNonContracting := [0]
  rhsNonContracting := [1]
  lhsBatch := []
  rhsBatch := []
  wf := dot_S128x384_S384x16384_S128x16384_1_0_0_1_n_n_wf
def dot_S4096x256_S4096x512_S256x512_0_0_1_1_n_n : DotDims S4096x256 S4096x512 S256x512 where
  lhsContracting := [0]
  rhsContracting := [0]
  lhsNonContracting := [1]
  rhsNonContracting := [1]
  lhsBatch := []
  rhsBatch := []
  wf := dot_S4096x256_S4096x512_S256x512_0_0_1_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S128x128_S512x128_0_0_1_1_n_n : DotDims S128x512 S128x128 S512x128 where
  lhsContracting := [0]
  rhsContracting := [0]
  lhsNonContracting := [1]
  rhsNonContracting := [1]
  lhsBatch := []
  rhsBatch := []
  wf := dot_S128x512_S128x128_S512x128_0_0_1_1_n_n_wf

abbrev win0_0 : Pipeline.Window sig grid0 :=
  Pipeline.Window.ofSpec (Memref.whole main_v0) S32x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x64x32 : Shape := ⟨3, ![4096, 64, 32]⟩
abbrev S192x128 : Shape := ⟨2, ![192, 128]⟩
abbrev S1x128 : Shape := ⟨2, ![1, 128]⟩
abbrev S384x128 : Shape := ⟨2, ![384, 128]⟩
abbrev S4096x256 : Shape := ⟨2, ![4096, 256]⟩
abbrev S1x256 : Shape := ⟨2, ![1, 256]⟩
abbrev S256x128 : Shape := ⟨2, ![256, 128]⟩
abbrev S128x128 : Shape := ⟨2, ![128, 128]⟩
abbrev S4096x32x64 : Shape := ⟨3, ![4096, 32, 64]⟩
abbrev S4096x128 : Shape := ⟨2, ![4096, 128]⟩
abbrev S128x32x64 : Shape := ⟨3, ![128, 32, 64]⟩
abbrev S128x1x64 : Shape := ⟨3, ![128, 1, 64]⟩
abbrev S128x34x64 : Shape := ⟨3, ![128, 34, 64]⟩
abbrev S128x32x192 : Shape := ⟨3, ![128, 32, 192]⟩
abbrev S4096x192 : Shape := ⟨2, ![4096, 192]⟩
abbrev S128x32x128 : Shape := ⟨3, ![128, 32, 128]⟩
abbrev S128x1x128 : Shape := ⟨3, ![128, 1, 128]⟩
abbrev S128x34x128 : Shape := ⟨3, ![128, 34, 128]⟩
abbrev S128x32x384 : Shape := ⟨3, ![128, 32, 384]⟩
abbrev S4096x384 : Shape := ⟨2, ![4096, 384]⟩
abbrev S128x1x4096 : Shape := ⟨3, ![128, 1, 4096]⟩
abbrev S128x4096 : Shape := ⟨2, ![128, 4096]⟩
abbrev S128x256 : Shape := ⟨2, ![128, 256]⟩

abbrev nBuf : Space → Nat
  | .hbm => 13
  | .vmem => 14
  | .smem => 0
  | _ => 0

abbrev bufTy : (tb : Table) → Fin (tcTables nBuf tb) → BufTy
  | .hbm, ⟨0, _⟩ => ⟨S4096x64x32, .f32⟩
  | .hbm, ⟨1, _⟩ => ⟨S192x128, .f32⟩
  | .hbm, ⟨2, _⟩ => ⟨S1x128, .f32⟩
  | .hbm, ⟨3, _⟩ => ⟨S384x128, .f32⟩
  | .hbm, ⟨4, _⟩ => ⟨S1x128, .f32⟩
  | .hbm, ⟨5, _⟩ => ⟨S4096x256, .f32⟩
  | .hbm, ⟨6, _⟩ => ⟨S1x256, .f32⟩
  | .hbm, ⟨7, _⟩ => ⟨S256x128, .f32⟩
  | .hbm, ⟨8, _⟩ => ⟨S1x128, .f32⟩
  | .hbm, ⟨9, _⟩ => ⟨S128x128, .f32⟩
  | .hbm, ⟨10, _⟩ => ⟨S1x128, .f32⟩
  | .hbm, ⟨11, _⟩ => ⟨S4096x32x64, .f32⟩
  | .hbm, ⟨12, _⟩ => ⟨S4096x128, .f32⟩
  | .local _ .vmem, ⟨0, _⟩ => ⟨S128x32x64, .f32⟩
  | .local _ .vmem, ⟨1, _⟩ => ⟨S128x32x64, .f32⟩
  | .local _ .vmem, ⟨2, _⟩ => ⟨S192x128, .f32⟩
  | .local _ .vmem, ⟨3, _⟩ => ⟨S1x128, .f32⟩
  | .local _ .vmem, ⟨4, _⟩ => ⟨S384x128, .f32⟩
  | .local _ .vmem, ⟨5, _⟩ => ⟨S1x128, .f32⟩
  | .local _ .vmem, ⟨6, _⟩ => ⟨S4096x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | _, _ => ⟨S4096x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x64x32_S4096x32x64_0_2_1 : S4096x64x32.Transposes [0, 2, 1] S4096x32x64
  inb_S128x32x64_S128x32x64_0_0_0 : ∀ a, (![0, 0, 0] : Fin 3 → Nat) a + S128x32x64.size a ≤ S128x32x64.size a
  h_S128x32x64 : 0 < S128x32x64.numel
  shapeCasts_S128x32x64_S128x32x64 : S128x32x64.ShapeCasts S128x32x64
  concatenates_S128x1x64_S128x32x64_S128x1x64_S128x34x64_d1 : Shape.Concatenates [S128x1x64, S128x32x64, S128x1x64] S128x34x64 1
  slices_S128x34x64_o0_0_0_S128x32x64 : S128x34x64.Slices ![0, 0, 0] S128x32x64
  slices_S128x34x64_o0_1_0_S128x32x64 : S128x34x64.Slices ![0, 1, 0] S128x32x64
  slices_S128x34x64_o0_2_0_S128x32x64 : S128x34x64.Slices ![0, 2, 0] S128x32x64
  concatenates_S128x32x64_S128x32x64_S128x32x64_S128x32x192_d2 : Shape.Concatenates [S128x32x64, S128x32x64, S128x32x64] S128x32x192 2
  shapeCasts_S128x32x192_S4096x192 : S128x32x192.ShapeCasts S4096x192
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  shapeCasts_S4096x128_S128x32x128 : S4096x128.ShapeCasts S128x32x128
  concatenates_S128x1x128_S128x32x128_S128x1x128_S128x34x128_d1 : Shape.Concatenates [S128x1x128, S128x32x128, S128x1x128] S128x34x128 1
  slices_S128x34x128_o0_0_0_S128x32x128 : S128x34x128.Slices ![0, 0, 0] S128x32x128
  slices_S128x34x128_o0_1_0_S128x32x128 : S128x34x128.Slices ![0, 1, 0] S128x32x128
  slices_S128x34x128_o0_2_0_S128x32x128 : S128x34x128.Slices ![0, 2, 0] S128x32x128
  concatenates_S128x32x128_S128x32x128_S128x32x128_S128x32x384_d2 : Shape.Concatenates [S128x32x128, S128x32x128, S128x32x128] S128x32x384 2
  shapeCasts_S128x32x384_S4096x384 : S128x32x384.ShapeCasts S4096x384
  inb_S384x128_S384x128_0_0 : ∀ a, (![0, 0] : Fin 2 → Nat) a + S384x128.size a ≤ S384x128.size a
  h_S384x128 : 0 < S384x128.numel
  slices_S128x32x128_o0_0_0_S128x1x128 : S128x32x128.Slices ![0, 0, 0] S128x1x128
  slices_S128x32x128_o0_1_0_S128x1x128 : S128x32x128.Slices ![0, 1, 0] S128x1x128
  slices_S128x32x128_o0_2_0_S128x1x128 : S128x32x128.Slices ![0, 2, 0] S128x1x128
  slices_S128x32x128_o0_3_0_S128x1x128 : S128x32x128.Slices ![0, 3, 0] S128x1x128
  slices_S128x32x128_o0_4_0_S128x1x128 : S128x32x128.Slices ![0, 4, 0] S128x1x128
  slices_S128x32x128_o0_5_0_S128x1x128 : S128x32x128.Slices ![0, 5, 0] S128x1x128
  slices_S128x32x128_o0_6_0_S128x1x128 : S128x32x128.Slices ![0, 6, 0] S128x1x128
  slices_S128x32x128_o0_7_0_S128x1x128 : S128x32x128.Slices ![0, 7, 0] S128x1x128
  slices_S128x32x128_o0_8_0_S128x1x128 : S128x32x128.Slices ![0, 8, 0] S128x1x128
  slices_S128x32x128_o0_9_0_S128x1x128 : S128x32x128.Slices ![0, 9, 0] S128x1x128
  slices_S128x32x128_o0_10_0_S128x1x128 : S128x32x128.Slices ![0, 10, 0] S128x1x128
  slices_S128x32x128_o0_11_0_S128x1x128 : S128x32x128.Slices ![0, 11, 0] S128x1x128
  slices_S128x32x128_o0_12_0_S128x1x128 : S128x32x128.Slices ![0, 12, 0] S128x1x128
  slices_S128x32x128_o0_13_0_S128x1x128 : S128x32x128.Slices ![0, 13, 0] S128x1x128
  slices_S128x32x128_o0_14_0_S128x1x128 : S128x32x128.Slices ![0, 14, 0] S128x1x128
  slices_S128x32x128_o0_15_0_S128x1x128 : S128x32x128.Slices ![0, 15, 0] S128x1x128
  slices_S128x32x128_o0_16_0_S128x1x128 : S128x32x128.Slices ![0, 16, 0] S128x1x128
  slices_S128x32x128_o0_17_0_S128x1x128 : S128x32x128.Slices ![0, 17, 0] S128x1x128
  slices_S128x32x128_o0_18_0_S128x1x128 : S128x32x128.Slices ![0, 18, 0] S128x1x128
  slices_S128x32x128_o0_19_0_S128x1x128 : S128x32x128.Slices ![0, 19, 0] S128x1x128
  slices_S128x32x128_o0_20_0_S128x1x128 : S128x32x128.Slices ![0, 20, 0] S128x1x128
  slices_S128x32x128_o0_21_0_S128x1x128 : S128x32x128.Slices ![0, 21, 0] S128x1x128
  slices_S128x32x128_o0_22_0_S128x1x128 : S128x32x128.Slices ![0, 22, 0] S128x1x128
  slices_S128x32x128_o0_23_0_S128x1x128 : S128x32x128.Slices ![0, 23, 0] S128x1x128
  slices_S128x32x128_o0_24_0_S128x1x128 : S128x32x128.Slices ![0, 24, 0] S128x1x128
  slices_S128x32x128_o0_25_0_S128x1x128 : S128x32x128.Slices ![0, 25, 0] S128x1x128
  slices_S128x32x128_o0_26_0_S128x1x128 : S128x32x128.Slices ![0, 26, 0] S128x1x128
  slices_S128x32x128_o0_27_0_S128x1x128 : S128x32x128.Slices ![0, 27, 0] S128x1x128
  slices_S128x32x128_o0_28_0_S128x1x128 : S128x32x128.Slices ![0, 28, 0] S128x1x128
  slices_S128x32x128_o0_29_0_S128x1x128 : S128x32x128.Slices ![0, 29, 0] S128x1x128
  slices_S128x32x128_o0_30_0_S128x1x128 : S128x32x128.Slices ![0, 30, 0] S128x1x128
  slices_S128x32x128_o0_31_0_S128x1x128 : S128x32x128.Slices ![0, 31, 0] S128x1x128
  concatenates_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x4096_d2 : Shape.Concatenates [S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128, S128x1x128] S128x1x4096 2
  shapeCasts_S128x1x4096_S128x4096 : S128x1x4096.ShapeCasts S128x4096
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  broadcasts_S1x256_S128x256 : S1x256.Broadcasts S128x256
  inb_S256x128_S256x128_0_0 : ∀ a, (![0, 0] : Fin 2 → Nat) a + S256x128.size a ≤ S256x128.size a
  h_S256x128 : 0 < S256x128.numel
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S4096x192_S192x128_S4096x128_1_0_0_1_n_n_wf : DotDims.WF S4096x192 S192x128 S4096x128 [1] [0] [0] [1] [] []
  dot_S4096x384_S384x128_S4096x128_1_0_0_1_n_n_wf : DotDims.WF S4096x384 S384x128 S4096x128 [1] [0] [0] [1] [] []
  dot_S128x4096_S4096x256_S128x256_1_0_0_1_n_n_wf : DotDims.WF S128x4096 S4096x256 S128x256 [1] [0] [0] [1] [] []
  dot_S128x256_S256x128_S128x128_1_0_0_1_n_n_wf : DotDims.WF S128x256 S256x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x64.size a ≤ S4096x32x64.size a
  hwx0_0 : ∀ i : grid0.Coords, EltTy.bits .f32 = 32 ∨ (Rect.block (s := S4096x32x64) S128x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .f32 = 32 ∨ (Rect.block (s := S192x128) S192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x256.size a
  hwx0_5 : ∀ i : grid0.Coords, EltTy.bits .f32 = 32 ∨ (Rect.block (s := S4096x256) S4096x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S4096x128.size a
  hwx0_11 : ∀ i : grid0.Coords, EltTy.bits .f32 = 32 ∨ (Rect.block (s := S4096x128) S128x128.size (cc0_transform_11 i) (hinb0_11 i)).WholeWords (EltTy.packing .f32)

variable [Facts₀]

def dot_S4096x192_S192x128_S4096x128_1_0_0_1_n_n : DotDims S4096x192 S192x128 S4096x128 where
  lhsContracting := [1]
  rhsContracting := [0]
  lhsNonContracting := [0]
  rhsNonContracting := [1]
  lhsBatch := []
  rhsBatch := []
  wf := dot_S4096x192_S192x128_S4096x128_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v0) S128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Net.lean ====
/-
  The network both programs compute, for ONE sample, over the extended reals.

  A sample is a 64-channel signal of length 32. Two convolutions of width 3 with "same" zero padding, each followed by a
  bias and a ReLU, are written as im2col products: row `l` of the im2col matrix lists, tap by tap, the padded signal's
  rows `l`, `l+1`, `l+2` (the padded signal has a zero row before the first and after the last position), so entry
  `j` of that row is tap `j / C`, channel `j % C`. The second convolution's output, read position-major
  (`l * 128 + c`), feeds two dense layers with bias and ReLU and a last affine layer.
-/
import Idealize.ShloMosaic.Lib.ValueIdx

noncomputable section

open scoped BigOperators

namespace Cert.Net

/-- Row `p` of a 32-row feature map padded with one zero row at each end: rows 1 … 32 are the map's rows 0 … 31, every
    other row is zero. -/
def padRow {C : ℕ} (h : Fin 32 → Fin C → EReal) (p : ℕ) (c : Fin C) : EReal :=
  if hp : 1 ≤ p ∧ p ≤ 32 then h ⟨p - 1, by omega⟩ c else 0

/-- Entry `j` of the im2col row of position `l`: tap `j / C` of the padded map, channel `j % C`. -/
def tap {C : ℕ} (hC : 0 < C) (h : Fin 32 → Fin C → EReal) (l : Fin 32) (j : ℕ) : EReal :=
  padRow h (l.val + j / C) ⟨j % C, Nat.mod_lt _ hC⟩

/-- A width-3 "same" convolution as an im2col product with `J = 3 * C` columns, then bias and ReLU. -/
def conv {C O J : ℕ} (hC : 0 < C) (h : Fin 32 → Fin C → EReal) (w : Fin J → Fin O → EReal) (b : Fin O → EReal) :
    Fin 32 → Fin O → EReal :=
  fun l o => max ((∑ j : Fin J, tap hC h l j.val * w j o) + b o) 0

/-- A dense layer with bias and ReLU. -/
def dense {D E : ℕ} (z : Fin D → EReal) (w : Fin D → Fin E → EReal) (b : Fin E → EReal) : Fin E → EReal :=
  fun e => max ((∑ d : Fin D, z d * w d e) + b e) 0

/-- The last layer: a product and a bias, no ReLU. -/
def affine {D E : ℕ} (z : Fin D → EReal) (w : Fin D → Fin E → EReal) (b : Fin E → EReal) : Fin E → EReal :=
  fun e => (∑ d : Fin D, z d * w d e) + b e

/-- The feature map read position-major: entry `r` is position `r / 128`, channel `r % 128`. -/
def flat (h : Fin 32 → Fin 128 → EReal) : Fin 4096 → EReal :=
  fun r => h ⟨r.val / 128, by omega⟩ ⟨r.val % 128, Nat.mod_lt _ (by decide)⟩

/-- The whole network on one sample `x` (channel, position). -/
def net (x : Fin 64 → Fin 32 → EReal) (w0 : Fin 192 → Fin 128 → EReal) (b0 : Fin 128 → EReal)
    (w1 : Fin 384 → Fin 128 → EReal) (b1 : Fin 128 → EReal) (d0 : Fin 4096 → Fin 256 → EReal) (db0 : Fin 256 → EReal)
    (d1 : Fin 256 → Fin 128 → EReal) (db1 : Fin 128 → EReal) (ow : Fin 128 → Fin 128 → EReal) (ob : Fin 128 → EReal) :
    Fin 128 → EReal :=
  affine (dense (dense (flat (conv (C := 128) (by decide) (conv (C := 64) (by decide) (fun l c => x c l) w0 b0) w1 b1))
    d0 db0) d1 db1) ow ob

end Cert.Net

end
-- ==== Proof.KRead.lean ====
/-
  How the kernel's region reads its arrays, and what those arrays hold.

  The grid has 8 points; point `t` takes rows `512 t … 512 t + 511` of the sample axis of the transposed input
  (position, sample, channel) and of the output (sample, output unit); every weight and bias window is the whole array at
  every point. Before the region the host transposes the input to (position, sample, channel), transposes the second
  convolution's and the second dense layer's weights, turns the four hidden bias rows into columns, and narrows the
  weights' format, which at the ideal values changes nothing. So every array the region reads is an argument read at a
  permuted index.
-/
import proofs.«174414_g2000105302243619_pallasbulk_1256_24_alg».proof.Proof.Gen.KernelIdeal.Value
import proofs.«174414_g2000105302243619_pallasbulk_1256_24_alg».proof.Proof.Net
import Idealize.ShloMosaic.Lib.ValueIdx
import Idealize.ShloMosaic.Lib.Pipeline.Value
import Idealize.ShloMosaic.Lib.StableHlo.Run

noncomputable section

namespace Cert.KernelIdeal.Read

open Cert.KernelIdeal Cert.KernelIdeal.Gen Idealize.ShloMosaic Idealize.ShloMosaic.ValueIdx Idealize.ShloMosaic.TcCoe Idealize.SL.Sem
open Idealize.ShloMosaic.StableHlo (after_cons after_nil)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the input's block moves along the sample axis with the output's
    block; every other window stays at block (0, 0); the output's block index is below 8 on the sample axis and 0 on
    the other. -/
theorem idx_facts : ∀ t : Fin cfg0.N,
    win0_0.index t (0 : Fin 3) = 0 ∧ win0_0.index t (1 : Fin 3) = win0_11.index t (0 : Fin 2) ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) ≤ 7 ∧ win0_11.index t (1 : Fin 2) = 0 :=
  (by decide +kernel : ∀ t : Fin grid0.N, _)

/-- Every block of the output along the sample axis is some point's. -/
theorem idx_onto : ∀ q : Fin 8, ∃ t : Fin cfg0.N, win0_11.index t = ![q.val, 0] :=
  (by decide +kernel : ∀ q : Fin 8, ∃ t : Fin grid0.N, win0_11.index t = ![q.val, 0])

/-! ## The arrays the host wrote before the region, read at an index -/

/-- The transposed input at (position, sample, channel) is the argument at (sample, channel, position). -/
theorem V_v0_apply (c : Dev nD) (l : Fin 32) (B : Fin 4096) (ch : Fin 64) :
    (V m c main_v0 : S32x4096x64.Idx → EReal) (ix3 l B ch) = ((m ((c : Thread nD τ).loc main_arg0)) : S4096x64x32.Idx → EReal) (ix3 B ch l) := by
  have e : @Eq (S32x4096x64.Idx → EReal) (V m c main_v0) (transpose S32x4096x64 [2, 0, 1] ((m ((c : Thread nD τ).loc main_arg0)) : S4096x64x32.Idx → EReal) transposes_S4096x64x32_S32x4096x64_2_0_1) := by
    dsimp only [Gen.V, Gen.hostOps0]; after_results <;> rfl
  rw [e]
  exact transpose_apply [2, 0, 1] _ _ (ix3 l B ch) (ix3 B ch l) (fun b => by
    match b with
    | ⟨0, _⟩ => rfl
    | ⟨1, _⟩ => rfl
    | ⟨2, _⟩ => rfl)

/-- The first convolution's weights as the region finds them are the argument's. -/
theorem V_v1_eq (c : Dev nD) : (V m c main_v1 : S192x128.Idx → EReal) = ((m ((c : Thread nD τ).loc main_arg1)) : S192x128.Idx → EReal) := by
  have e : @Eq (S192x128.Idx → EReal) (V m c main_v1) (truncf (F := Ideal) .bf16 ((m ((c : Thread nD τ).loc main_arg1)) : S192x128.Idx → EReal) bitsLt_bf16_f32) := by
    dsimp only [Gen.V, Gen.hostOps0]; after_results <;> rfl
  rw [e]; rfl

/-- The second convolution's weights as the region finds them, at (output channel, tap·channel), are the argument's at
    (tap·channel, output channel). -/
theorem V_v3_apply (c : Dev nD) (o : Fin 128) (j : Fin 384) :
    (V m c main_v3 : S128x384.Idx → EReal) (ix2 o j) = ((m ((c : Thread nD τ).loc main_arg3)) : S384x128.Idx → EReal) (ix2 j o) := by
  have e : @Eq (S128x384.Idx → EReal) (V m c main_v3) (truncf (F := Ideal) .bf16 (transpose S128x384 [1, 0] ((m ((c : Thread nD τ).loc main_arg3)) : S384x128.Idx → EReal) transposes_S384x128_S128x384_1_0) bitsLt_bf16_f32) := by
    dsimp only [Gen.V, Gen.hostOps0]; after_results <;> rfl
  rw [e, truncf_apply]
  exact transpose_apply [1, 0] _ _ (ix2 o j) (ix2 j o) (fun b => by
    match b with
    | ⟨0, _⟩ => rfl
    | ⟨1, _⟩ => rfl)

/-- The first dense layer's weights as the region finds them are the argument's. -/
theorem V_v4_eq (c : Dev nD) : (V m c main_v4 : S4096x256.Idx → EReal) = ((m ((c : Thread nD τ).loc main_arg5)) : S4096x256.Idx → EReal) := by
  have e : @Eq (S4096x256.Idx → EReal) (V m c main_v4) (truncf (F := Ideal) .bf16 ((m ((c : Thread nD τ).loc main_arg5)) : S4096x256.Idx → EReal) bitsLt_bf16_f32) := by
    dsimp only [Gen.V, Gen.hostOps0]; after_results <;> rfl
  rw [e]; rfl

/-- The second dense layer's weights as the region finds them, at (unit, input unit), are the argument's at
    (input unit, unit). -/
theorem V_v6_apply (c : Dev nD) (e' : Fin 128) (d : Fin 256) :
    (V m c main_v6 : S128x256.Idx → EReal) (ix2 e' d) = ((m ((c : Thread nD τ).loc main_arg7)) : S256x128.Idx → EReal) (ix2 d e') := by
  have e : @Eq (S128x256.Idx → EReal) (V m c main_v6) (truncf (F := Ideal) .bf16 (transpose S128x256 [1, 0] ((m ((c : Thread nD τ).loc main_arg7)) : S256x128.Idx → EReal) transposes_S256x128_S128x256_1_0) bitsLt_bf16_f32) := by
    dsimp only [Gen.V, Gen.hostOps0]; after_results <;> rfl
  rw [e, truncf_apply]
  exact transpose_apply [1, 0] _ _ (ix2 e' d) (ix2 d e') (fun b => by
    match b with
    | ⟨0, _⟩ => rfl
    | ⟨1, _⟩ => rfl)

/-- The output layer's weights as the region finds them are the argument's. -/
theorem V_v7_eq (c : Dev nD) : (V m c main_v7 : S128x128.Idx → EReal) = ((m ((c : Thread nD τ).loc main_arg9)) : S128x128.Idx → EReal) := by
  have e : @Eq (S128x128.Idx → EReal) (V m c main_v7) (truncf (F := Ideal) .bf16 ((m ((c : Thread nD τ).loc main_arg9)) : S128x128.Idx → EReal) bitsLt_bf16_f32) := by
    dsimp only [Gen.V, Gen.hostOps0]; after_results <;> rfl
  rw [e]; rfl

/-- The bias column written before the region, at row `o`: the argument's row entry `o`. -/
theorem V_v9_apply (c : Dev nD) (o : Fin 128) :
    (V m c main_v9 : S128x1.Idx → EReal) (ix2 o 0) = ((m ((c : Thread nD τ).loc main_arg2)) : S1x128.Idx → EReal) (ix2 0 o) := by
  have e : @Eq (S128x1.Idx → EReal) (V m c main_v9) (truncf (F := Ideal) .bf16 (shapeCast S128x1 ((m ((c : Thread nD τ).loc main_arg2)) : S1x128.Idx → EReal) shapeCasts_S1x128_S128x1) bitsLt_bf16_f32) := by
    dsimp only [Gen.V, Gen.hostOps0]; after_results <;> rfl
  rw [e, truncf_apply]
  refine shapeCast_apply _ _ (ix2 o 0) (ix2 0 o) ?_
  rw [Shape.rowMajor_val_two, Shape.rowMajor_val_two]
  show (0 : Fin 1).val * 128 + o.val = o.val * 1 + (0 : Fin 1).val
  simp

/-- The bias column written before the region, at row `o`: the argument's row entry `o`. -/
theorem V_v11_apply (c : Dev nD) (o : Fin 128) :
    (V m c main_v11 : S128x1.Idx → EReal) (ix2 o 0) = ((m ((c : Thread nD τ).loc main_arg4)) : S1x128.Idx → EReal) (ix2 0 o) := by
  have e : @Eq (S128x1.Idx → EReal) (V m c main_v11) (truncf (F := Ideal) .bf16 (shapeCast S128x1 ((m ((c : Thread nD τ).loc main_arg4)) : S1x128.Idx → EReal) shapeCasts_S1x128_S128x1) bitsLt_bf16_f32) := by
    dsimp only [Gen.V, Gen.hostOps0]; after_results <;> rfl
  rw [e, truncf_apply]
  refine shapeCast_apply _ _ (ix2 o 0) (ix2 0 o) ?_
  rw [Shape.rowMajor_val_two, Shape.rowMajor_val_two]
  show (0 : Fin 1).val * 128 + o.val = o.val * 1 + (0 : Fin 1).val
  simp

/-- The bias column written before the region, at row `o`: the argument's row entry `o`. -/
theorem V_v13_apply (c : Dev nD) (o : Fin 256) :
    (V m c main_v13 : S256x1.Idx → EReal) (ix2 o 0) = ((m ((c : Thread nD τ).loc main_arg6)) : S1x256.Idx → EReal) (ix2 0 o) := by
  have e : @Eq (S256x1.Idx → EReal) (V m c main_v13) (truncf (F := Ideal) .bf16 (shapeCast S256x1 ((m ((c : Thread nD τ).loc main_arg6)) : S1x256.Idx → EReal) shapeCasts_S1x256_S256x1) bitsLt_bf16_f32) := by
    dsimp only [Gen.V, Gen.hostOps0]; after_results <;> rfl
  rw [e, truncf_apply]
  refine shapeCast_apply _ _ (ix2 o 0) (ix2 0 o) ?_
  rw [Shape.rowMajor_val_two, Shape.rowMajor_val_two]
  show (0 : Fin 1).val * 256 + o.val = o.val * 1 + (0 : Fin 1).val
  simp

/-- The bias column written before the region, at row `o`: the argument's row entry `o`. -/
theorem V_v15_apply (c : Dev nD) (o : Fin 128) :
    (V m c main_v15 : S128x1.Idx → EReal) (ix2 o 0) = ((m ((c : Thread nD τ).loc main_arg8)) : S1x128.Idx → EReal) (ix2 0 o) := by
  have e : @Eq (S128x1.Idx → EReal) (V m c main_v15) (truncf (F := Ideal) .bf16 (shapeCast S128x1 ((m ((c : Thread nD τ).loc main_arg8)) : S1x128.Idx → EReal) shapeCasts_S1x128_S128x1) bitsLt_bf16_f32) := by
    dsimp only [Gen.V, Gen.hostOps0]; after_results <;> rfl
  rw [e, truncf_apply]
  refine shapeCast_apply _ _ (ix2 o 0) (ix2 0 o) ?_
  rw [Shape.rowMajor_val_two, Shape.rowMajor_val_two]
  show (0 : Fin 1).val * 128 + o.val = o.val * 1 + (0 : Fin 1).val
  simp

/-! ## The windows' blocks -/

/-- The input window's block at a point, at its literal type. -/
abbrev blk0 (c : Dev nD) (t : Fin cfg0.N) : S32x512x64.Idx → EReal := iblk m c 0 t
/-- Entry (position, b, channel) of the input's block at point `t` is the transposed input's entry at sample
    `B = 512 · (the output's block index) + b`. -/
theorem blk0_apply (c : Dev nD) (t : Fin cfg0.N) (l : Fin 32) (b : Fin 512) (ch : Fin 64) (B : Fin 4096)
    (hB : B.val = win0_11.index t (0 : Fin 2) * 512 + b.val) :
    blk0 m c t (ix3 l b ch) = (V m c main_v0 : S32x4096x64.Idx → EReal) (ix3 l B ch) := by
  obtain ⟨h0a, h0b, h0c, h1a, h1b, h2a, h2b, h3a, h3b, h4a, h4b, h5a, h5b, h6a, h6b, h7a, h7b, h8a, h8b, h9a, h9b, h10a, h10b, h11a, h11b⟩ := idx_facts t
  show (V m c main_v0 : S32x4096x64.Idx → EReal) (((cfg0.win 0).blk t).view.emb (ix3 l b ch)) = _
  refine congrArg _ (funext fun a => Fin.ext ?_)
  match a with
  | ⟨0, _⟩ => show win0_0.index t (0 : Fin 3) * 32 + 1 * l.val = l.val; omega
  | ⟨1, _⟩ => show win0_0.index t (1 : Fin 3) * 512 + 1 * b.val = B.val; omega
  | ⟨2, _⟩ => show win0_0.index t (2 : Fin 3) * 64 + 1 * ch.val = ch.val; omega

/-- Window 1's block at a point, at its literal type. -/
abbrev blk1 (c : Dev nD) (t : Fin cfg0.N) : S192x128.Idx → EReal := iblk m c 1 t
/-- Window 1 is the whole array at every point. -/
theorem blk1_eq (c : Dev nD) (t : Fin cfg0.N) : blk1 m c t = (V m c main_v1 : S192x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v1 : S192x128.Idx → EReal) (((cfg0.win 1).blk t).view.emb y) = (V m c main_v1 : S192x128.Idx → EReal) y
  refine congrArg _ (funext fun a => Fin.ext ?_)
  match a with
  | ⟨0, _⟩ => show win0_1.index t (0 : Fin 2) * 192 + 1 * (y 0).val = (y 0).val; omega
  | ⟨1, _⟩ => show win0_1.index t (1 : Fin 2) * 128 + 1 * (y 1).val = (y 1).val; omega

/-- Window 2's block at a point, at its literal type. -/
abbrev blk2 (c : Dev nD) (t : Fin cfg0.N) : S128x1.Idx → EReal := iblk m c 2 t
/-- Window 2 is the whole array at every point. -/
theorem blk2_eq (c : Dev nD) (t : Fin cfg0.N) : blk2 m c t = (V m c main_v9 : S128x1.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v9 : S128x1.Idx → EReal) (((cfg0.win 2).blk t).view.emb y) = (V m c main_v9 : S128x1.Idx → EReal) y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 1 + 1 * (y 1).val = (y 1).val; omega

/-- Window 3's block at a point, at its literal type. -/
abbrev blk3 (c : Dev nD) (t : Fin cfg0.N) : S128x384.Idx → EReal := iblk m c 3 t
/-- Window 3 is the whole array at every point. -/
theorem blk3_eq (c : Dev nD) (t : Fin cfg0.N) : blk3 m c t = (V m c main_v3 : S128x384.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v3 : S128x384.Idx → EReal) (((cfg0.win 3).blk t).view.emb y) = (V m c main_v3 : S128x384.Idx → EReal) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 384 + 1 * (y 1).val = (y 1).val; omega

/-- Window 4's block at a point, at its literal type. -/
abbrev blk4 (c : Dev nD) (t : Fin cfg0.N) : S128x1.Idx → EReal := iblk m c 4 t
/-- Window 4 is the whole array at every point. -/
theorem blk4_eq (c : Dev nD) (t : Fin cfg0.N) : blk4 m c t = (V m c main_v11 : S128x1.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v11 : S128x1.Idx → EReal) (((cfg0.win 4).blk t).view.emb y) = (V m c main_v11 : S128x1.Idx → EReal) y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega

/-- Window 5's block at a point, at its literal type. -/
abbrev blk5 (c : Dev nD) (t : Fin cfg0.N) : S4096x256.Idx → EReal := iblk m c 5 t
/-- Window 5 is the whole array at every point. -/
theorem blk5_eq (c : Dev nD) (t : Fin cfg0.N) : blk5 m c t = (V m c main_v4 : S4096x256.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v4 : S4096x256.Idx → EReal) (((cfg0.win 5).blk t).view.emb y) = (V m c main_v4 : S4096x256.Idx → EReal) y
  refine congrArg _ (funext fun a => Fin.ext ?_)
  match a with
  | ⟨0, _⟩ => show win0_5.index t (0 : Fin 2) * 4096 + 1 * (y 0).val = (y 0).val; omega
  | ⟨1, _⟩ => show win0_5.index t (1 : Fin 2) * 256 + 1 * (y 1).val = (y 1).val; omega

/-- Window 6's block at a point, at its literal type. -/
abbrev blk6 (c : Dev nD) (t : Fin cfg0.N) : S256x1.Idx → EReal := iblk m c 6 t
/-- Window 6 is the whole array at every point. -/
theorem blk6_eq (c : Dev nD) (t : Fin cfg0.N) : blk6 m c t = (V m c main_v13 : S256x1.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v13 : S256x1.Idx → EReal) (((cfg0.win 6).blk t).view.emb y) = (V m c main_v13 : S256x1.Idx → EReal) y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- Window 7's block at a point, at its literal type. -/
abbrev blk7 (c : Dev nD) (t : Fin cfg0.N) : S128x256.Idx → EReal := iblk m c 7 t
/-- Window 7 is the whole array at every point. -/
theorem blk7_eq (c : Dev nD) (t : Fin cfg0.N) : blk7 m c t = (V m c main_v6 : S128x256.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v6 : S128x256.Idx → EReal) (((cfg0.win 7).blk t).view.emb y) = (V m c main_v6 : S128x256.Idx → EReal) y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 256 + 1 * (y 1).val = (y 1).val; omega

/-- Window 8's block at a point, at its literal type. -/
abbrev blk8 (c : Dev nD) (t : Fin cfg0.N) : S128x1.Idx → EReal := iblk m c 8 t
/-- Window 8 is the whole array at every point. -/
theorem blk8_eq (c : Dev nD) (t : Fin cfg0.N) : blk8 m c t = (V m c main_v15 : S128x1.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v15 : S128x1.Idx → EReal) (((cfg0.win 8).blk t).view.emb y) = (V m c main_v15 : S128x1.Idx → EReal) y
  refine congrArg _ (funext fun a => Fin.ext ?_)
  match a with
  | ⟨0, _⟩ => show win0_8.index t (0 : Fin 2) * 128 + 1 * (y 0).val = (y 0).val; omega
  | ⟨1, _⟩ => show win0_8.index t (1 : Fin 2) * 1 + 1 * (y 1).val = (y 1).val; omega

/-- Window 9's block at a point, at its literal type. -/
abbrev blk9 (c : Dev nD) (t : Fin cfg0.N) : S128x128.Idx → EReal := iblk m c 9 t
/-- Window 9 is the whole array at every point. -/
theorem blk9_eq (c : Dev nD) (t : Fin cfg0.N) : blk9 m c t = (V m c main_v7 : S128x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_v7 : S128x128.Idx → EReal) (((cfg0.win 9).blk t).view.emb y) = (V m c main_v7 : S128x128.Idx → EReal) y
  refine congrArg _ (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10's block at a point, at its literal type. -/
abbrev blk10 (c : Dev nD) (t : Fin cfg0.N) : S1x128.Idx → EReal := iblk m c 10 t
/-- Window 10 is the whole array at every point. -/
theorem blk10_eq (c : Dev nD) (t : Fin cfg0.N) : blk10 m c t = (V m c main_arg10 : S1x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg10 : S1x128.Idx → EReal) (((cfg0.win 10).blk t).view.emb y) = (V m c main_arg10 : S1x128.Idx → EReal) y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## The output window: which indices a point's block holds, and that the blocks cover the array -/

/-- An index of the output array is in point `t`'s block iff each coordinate is in the block's range on its axis. -/
theorem mem_blk11 (t : Fin cfg0.N) (i : S4096x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v16).slice (win0_11.rect t)).set ↔ _
  rw [View.set_slice_whole, Rect.mem_set_unit]
  exact Iff.rfl

/-- Every index of the output array is in some point's block: row `B` is in the block of the point whose block index
    is `B / 512`. -/
theorem cover11 (i : S4096x128.Idx) : ∃ t : Fin cfg0.N, (cfg0.win 11).flush t = true ∧ i ∈ ((cfg0.win 11).blk t).view.set := by
  have hi0 : (i 0).val < 4096 := (i 0).isLt
  have hi1 : (i 1).val < 128 := (i 1).isLt
  obtain ⟨t, ht⟩ := idx_onto ⟨(i 0).val / 512, by omega⟩
  have q0 : win0_11.index t (0 : Fin 2) = (i 0).val / 512 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 128 ≤ (i 1).val ∧ (i 1).val < win0_11.index t (1 : Fin 2) * 128 + 128; omega

end Cert.KernelIdeal.Read

end
-- ==== Proof.KLayers.lean ====
/-
  The kernel body's arithmetic cut into its layers, each a function of the values it reads.

  The body works in a transposed world: an activation is a matrix with channels on rows and (position, sample) on
  columns, column `l * 512 + b` being position `l` of sample `b` of the tile. The layers are: the first convolution
  (im2col by row shifts of the padded input, weights contracted on their first axis), the second convolution (im2col by
  column shifts of the padded activation), the flatten (32 column slices stacked on rows: row `l * 128 + c`), two dense
  layers, and the output product. The two equations at the end say that the payload terms the frame is stated over
  are these layers composed.
-/
import proofs.«174414_g2000105302243619_pallasbulk_1256_24_alg».proof.Proof.Gen.KernelIdeal.Skeleton

set_option synthInstance.maxSize 4096

noncomputable section

namespace Cert.KernelIdeal.Layers

open Idealize.ShloMosaic Idealize.SL.Sem Cert.KernelIdeal Cert.KernelIdeal.Gen

variable {F : FTy → Type} [FloatOps F]

/-- The column of position `l`, sample `b` of the tile. -/
abbrev col (l : Fin 32) (b : Fin 512) : Fin 16384 := ⟨l.val * 512 + b.val, by omega⟩

/-- First convolution with bias and ReLU: from the input tile (position, sample, channel), the weights
    (tap·channel, output channel) and the bias column, the activation (output channel, position·sample). -/
def conv0 (v0 : Vec F S32x512x64 .f32) (v10 : Vec F S192x128 .bf16) (v14 : Vec F S128x1 .bf16) : FVec F S128x16384 .bf16 :=
  have v1 : FVec F S32x512x64 .f32 := shapeCast S32x512x64 v0 shapeCasts_S32x512x64_S32x512x64
  have v2 : FVec F S32x512x64 .bf16 := truncf .bf16 v1 bitsLt_bf16_f32
  have v3 : FVec F S16384x64 .bf16 := shapeCast S16384x64 v2 shapeCasts_S32x512x64_S16384x64
  have cst : F .bf16 := Scalar.ofBits .bf16 0x0000#16
  have v4 : FVec F S512x64 .bf16 := broadcast S512x64 cst
  have v5 : FVec F S17408x64 .bf16 := concatenate S17408x64 0 [⟨S512x64, v4⟩, ⟨S16384x64, v3⟩, ⟨S512x64, v4⟩] concatenates_S512x64_S16384x64_S512x64_S17408x64_d0
  have v6 : FVec F S16384x64 .bf16 := extractStridedSlice S16384x64 ![0, 0] v5 slices_S17408x64_o0_0_S16384x64
  have v7 : FVec F S16384x64 .bf16 := extractStridedSlice S16384x64 ![512, 0] v5 slices_S17408x64_o512_0_S16384x64
  have v8 : FVec F S16384x64 .bf16 := extractStridedSlice S16384x64 ![1024, 0] v5 slices_S17408x64_o1024_0_S16384x64
  have v9 : FVec F S16384x192 .bf16 := concatenate S16384x192 1 [⟨S16384x64, v6⟩, ⟨S16384x64, v7⟩, ⟨S16384x64, v8⟩] concatenates_S16384x64_S16384x64_S16384x64_S16384x192_d1
  have v11 : FVec F S192x128 .bf16 := shapeCast S192x128 v10 shapeCasts_S192x128_S192x128
  have cst_4 : FVec F S128x16384 .f32 := constant S128x16384 .f32 0x00000000#32
  have v12 : FVec F S128x16384 .f32 := matmul dot_S192x128_S16384x192_S128x16384_0_1_1_0_n_n none v11 v9 cst_4
  have v13 : FVec F S128x16384 .bf16 := truncf .bf16 v12 bitsLt_bf16_f32
  have v15 : FVec F S128x1 .bf16 := shapeCast S128x1 v14 shapeCasts_S128x1_S128x1
  have v16 : FVec F S128x16384 .bf16 := broadcastTo S128x16384 v15 broadcasts_S128x1_S128x16384
  have v17 : FVec F S128x16384 .bf16 := addf v13 v16
  have cst_7 : F .bf16 := Scalar.ofBits .bf16 0x0000#16
  have v18 : FVec F S128x16384 .bf16 := broadcast S128x16384 cst_7
  have v19 : FVec F S128x16384 .bf16 := maximumf v17 v18
  v19

/-- Second convolution with bias and ReLU: from the activation (channel, position·sample), the transposed weights
    (output channel, tap·channel) and the bias column. -/
def conv1 (v19 : FVec F S128x16384 .bf16) (v26 : Vec F S128x384 .bf16) (v30 : Vec F S128x1 .bf16) : FVec F S128x16384 .bf16 :=
  have cst_8 : F .bf16 := Scalar.ofBits .bf16 0x0000#16
  have v20 : FVec F S128x512 .bf16 := broadcast S128x512 cst_8
  have v21 : FVec F S128x17408 .bf16 := concatenate S128x17408 1 [⟨S128x512, v20⟩, ⟨S128x16384, v19⟩, ⟨S128x512, v20⟩] concatenates_S128x512_S128x16384_S128x512_S128x17408_d1
  have v22 : FVec F S128x16384 .bf16 := extractStridedSlice S128x16384 ![0, 0] v21 slices_S128x17408_o0_0_S128x16384
  have v23 : FVec F S128x16384 .bf16 := extractStridedSlice S128x16384 ![0, 512] v21 slices_S128x17408_o0_512_S128x16384
  have v24 : FVec F S128x16384 .bf16 := extractStridedSlice S128x16384 ![0, 1024] v21 slices_S128x17408_o0_1024_S128x16384
  have v25 : FVec F S384x16384 .bf16 := concatenate S384x16384 0 [⟨S128x16384, v22⟩, ⟨S128x16384, v23⟩, ⟨S128x16384, v24⟩] concatenates_S128x16384_S128x16384_S128x16384_S384x16384_d0
  have v27 : FVec F S128x384 .bf16 := shapeCast S128x384 v26 shapeCasts_S128x384_S128x384
  have cst_11 : FVec F S128x16384 .f32 := constant S128x16384 .f32 0x00000000#32
  have v28 : FVec F S128x16384 .f32 := matmul dot_S128x384_S384x16384_S128x16384_1_0_0_1_n_n none v27 v25 cst_11
  have v29 : FVec F S128x16384 .bf16 := truncf .bf16 v28 bitsLt_bf16_f32
  have v31 : FVec F S128x1 .bf16 := shapeCast S128x1 v30 shapeCasts_S128x1_S128x1
  have v32 : FVec F S128x16384 .bf16 := broadcastTo S128x16384 v31 broadcasts_S128x1_S128x16384
  have v33 : FVec F S128x16384 .bf16 := addf v29 v32
  have cst_14 : F .bf16 := Scalar.ofBits .bf16 0x0000#16
  have v34 : FVec F S128x16384 .bf16 := broadcast S128x16384 cst_14
  have v35 : FVec F S128x16384 .bf16 := maximumf v33 v34
  v35

/-- The flatten: the 32 position slices of the activation (each 128 channels by 512 samples) stacked on rows. -/
def flat (v35 : FVec F S128x16384 .bf16) : FVec F S4096x512 .bf16 :=
  concatenate S4096x512 0
    [⟨S128x512, extractStridedSlice S128x512 ![0, 0] v35 slices_S128x16384_o0_0_S128x512⟩,
      ⟨S128x512, extractStridedSlice S128x512 ![0, 512] v35 slices_S128x16384_o0_512_S128x512⟩,
      ⟨S128x512, extractStridedSlice S128x512 ![0, 1024] v35 slices_S128x16384_o0_1024_S128x512⟩,
      ⟨S128x512, extractStridedSlice S128x512 ![0, 1536] v35 slices_S128x16384_o0_1536_S128x512⟩,
      ⟨S128x512, extractStridedSlice S128x512 ![0, 2048] v35 slices_S128x16384_o0_2048_S128x512⟩,
      ⟨S128x512, extractStridedSlice S128x512 ![0, 2560] v35 slices_S128x16384_o0_2560_S128x512⟩,
      ⟨S128x512, extractStridedSlice S128x512 ![0, 3072] v35 slices_S128x16384_o0_3072_S128x512⟩,
      ⟨S128x512, extractStridedSlice S128x512 ![0, 3584] v35 slices_S128x16384_o0_3584_S128x512⟩,
      ⟨S128x512, extractStridedSlice S128x512 ![0, 4096] v35 slices_S128x16384_o0_4096_S128x512⟩,
      ⟨S128x512, extractStridedSlice S128x512 ![0, 4608] v35 slices_S128x16384_o0_4608_S128x512⟩,
      ⟨S128x512, extractStridedSlice S128x512 ![0, 5120] v35 slices_S128x16384_o0_5120_S128x512⟩,
      ⟨S128x512, extractStridedSlice S128x512 ![0, 5632] v35 slices_S128x16384_o0_5632_S128x512⟩,
      ⟨S128x512, extractStridedSlice S128x512 ![0, 6144] v35 slices_S128x16384_o0_6144_S128x512⟩,
      ⟨S128x512, extractStridedSlice S128x512 ![0, 6656] v35 slices_S128x16384_o0_6656_S128x512⟩,
      ⟨S128x512, extractStridedSlice S128x512 ![0, 7168] v35 slices_S128x16384_o0_7168_S128x512⟩,
      ⟨S128x512, extractStridedSlice S128x512 ![0, 7680] v35 slices_S128x16384_o0_7680_S128x512⟩,
      ⟨S128x512, extractStridedSlice S128x512 ![0, 8192] v35 slices_S128x16384_o0_8192_S128x512⟩,
      ⟨S128x512, extractStridedSlice S128x512 ![0, 8704] v35 slices_S128x16384_o0_8704_S128x512⟩,
      ⟨S128x512, extractStridedSlice S128x512 ![0, 9216] v35 slices_S128x16384_o0_9216_S128x512⟩,
      ⟨S128x512, extractStridedSlice S128x512 ![0, 9728] v35 slices_S128x16384_o0_9728_S128x512⟩,
      ⟨S128x512, extractStridedSlice S128x512 ![0, 10240] v35 slices_S128x16384_o0_10240_S128x512⟩,
      ⟨S128x512, extractStridedSlice S128x512 ![0, 10752] v35 slices_S128x16384_o0_10752_S128x512⟩,
      ⟨S128x512, extractStridedSlice S128x512 ![0, 11264] v35 slices_S128x16384_o0_11264_S128x512⟩,
      ⟨S128x512, extractStridedSlice S128x512 ![0, 11776] v35 slices_S128x16384_o0_11776_S128x512⟩,
      ⟨S128x512, extractStridedSlice S128x512 ![0, 12288] v35 slices_S128x16384_o0_12288_S128x512⟩,
      ⟨S128x512, extractStridedSlice S128x512 ![0, 12800] v35 slices_S128x16384_o0_12800_S128x512⟩,
      ⟨S128x512, extractStridedSlice S128x512 ![0, 13312] v35 slices_S128x16384_o0_13312_S128x512⟩,
      ⟨S128x512, extractStridedSlice S128x512 ![0, 13824] v35 slices_S128x16384_o0_13824_S128x512⟩,
      ⟨S128x512, extractStridedSlice S128x512 ![0, 14336] v35 slices_S128x16384_o0_14336_S128x512⟩,
      ⟨S128x512, extractStridedSlice S128x512 ![0, 14848] v35 slices_S128x16384_o0_14848_S128x512⟩,
      ⟨S128x512, extractStridedSlice S128x512 ![0, 15360] v35 slices_S128x16384_o0_15360_S128x512⟩,
      ⟨S128x512, extractStridedSlice S128x512 ![0, 15872] v35 slices_S128x16384_o0_15872_S128x512⟩]
    concatenates_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S4096x512_d0

/-- First dense layer with bias and ReLU: weights (flattened feature, unit) contracted on their first axis against the
    flattened activation (flattened feature, sample). -/
def dense0 (v68 : FVec F S4096x512 .bf16) (v69 : Vec F S4096x256 .bf16) (v73 : Vec F S256x1 .bf16) : FVec F S256x512 .bf16 :=
  have v70 : FVec F S4096x256 .bf16 := shapeCast S4096x256 v69 shapeCasts_S4096x256_S4096x256
  have cst_17 : FVec F S256x512 .f32 := constant S256x512 .f32 0x00000000#32
  have v71 : FVec F S256x512 .f32 := matmul dot_S4096x256_S4096x512_S256x512_0_0_1_1_n_n none v70 v68 cst_17
  have v72 : FVec F S256x512 .bf16 := truncf .bf16 v71 bitsLt_bf16_f32
  have v74 : FVec F S256x1 .bf16 := shapeCast S256x1 v73 shapeCasts_S256x1_S256x1
  have v75 : FVec F S256x512 .bf16 := broadcastTo S256x512 v74 broadcasts_S256x1_S256x512
  have v76 : FVec F S256x512 .bf16 := addf v72 v75
  have cst_20 : F .bf16 := Scalar.ofBits .bf16 0x0000#16
  have v77 : FVec F S256x512 .bf16 := broadcast S256x512 cst_20
  have v78 : FVec F S256x512 .bf16 := maximumf v76 v77
  v78

/-- Second dense layer with bias and ReLU: transposed weights (unit, input unit) by the activation (input unit, sample). -/
def dense1 (v78 : FVec F S256x512 .bf16) (v79 : Vec F S128x256 .bf16) (v83 : Vec F S128x1 .bf16) : FVec F S128x512 .bf16 :=
  have v80 : FVec F S128x256 .bf16 := shapeCast S128x256 v79 shapeCasts_S128x256_S128x256
  have cst_23 : FVec F S128x512 .f32 := constant S128x512 .f32 0x00000000#32
  have v81 : FVec F S128x512 .f32 := matmul dot_S128x256_S256x512_S128x512_1_0_0_1_n_n none v80 v78 cst_23
  have v82 : FVec F S128x512 .bf16 := truncf .bf16 v81 bitsLt_bf16_f32
  have v84 : FVec F S128x1 .bf16 := shapeCast S128x1 v83 shapeCasts_S128x1_S128x1
  have v85 : FVec F S128x512 .bf16 := broadcastTo S128x512 v84 broadcasts_S128x1_S128x512
  have v86 : FVec F S128x512 .bf16 := addf v82 v85
  have cst_26 : F .bf16 := Scalar.ofBits .bf16 0x0000#16
  have v87 : FVec F S128x512 .bf16 := broadcast S128x512 cst_26
  have v88 : FVec F S128x512 .bf16 := maximumf v86 v87
  v88

/-- The payload of both convolutions is the second convolution of the first. -/
theorem pay2_eq (v0 : Vec F S32x512x64 .f32) (v10 : Vec F S192x128 .bf16) (v14 : Vec F S128x1 .bf16)
    (v26 : Vec F S128x384 .bf16) (v30 : Vec F S128x1 .bf16) :
    k0_pay2 v0 v10 v14 v26 v30 = conv1 (conv0 v0 v10 v14) v26 v30 := rfl

/-- The payload of the flatten and the two dense layers, given the convolutions' activation and its first six position
    slices, is the layers composed. -/
theorem pay9_eq (v35 : FVec F S128x16384 .bf16) (v69 : Vec F S4096x256 .bf16) (v73 : Vec F S256x1 .bf16)
    (v79 : Vec F S128x256 .bf16) (v83 : Vec F S128x1 .bf16) :
    k0_pay9 v35 (extractStridedSlice S128x512 ![0, 0] v35 slices_S128x16384_o0_0_S128x512) (extractStridedSlice S128x512 ![0, 512] v35 slices_S128x16384_o0_512_S128x512) (extractStridedSlice S128x512 ![0, 1024] v35 slices_S128x16384_o0_1024_S128x512) (extractStridedSlice S128x512 ![0, 1536] v35 slices_S128x16384_o0_1536_S128x512) (extractStridedSlice S128x512 ![0, 2048] v35 slices_S128x16384_o0_2048_S128x512) (extractStridedSlice S128x512 ![0, 2560] v35 slices_S128x16384_o0_2560_S128x512) v69 v73 v79 v83
      = dense1 (dense0 (flat v35) v69 v73) v79 v83 := rfl

end Cert.KernelIdeal.Layers

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KConv0.lean ====
/-
  The kernel's first convolution read at an entry: output channel `o`, position `l`, sample `b` of the tile.

  The activation's entry (o, l·512 + b) is a product of the weights' column `o` with row l·512 + b of the im2col matrix,
  plus the bias, clamped at zero. Row p = l·512 + b of the im2col matrix lists three row-shifted copies of the padded
  input side by side: its entry j is the padded input's row 512·(j / 64) + p, column j % 64. The padded input is the
  merged input (row l'·512 + b' is position l', sample b') between two blocks of 512 zero rows, so row 512·k + p is zero
  when l + k is 0 or 33 and is otherwise position l + k − 1 of the same sample b: the network's tap.
-/
import proofs.«174414_g2000105302243619_pallasbulk_1256_24_alg».proof.Proof.KLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Layers

open Idealize.ShloMosaic Idealize.ShloMosaic.ValueIdx Cert.KernelIdeal Cert.KernelIdeal.Gen

/-- The merged input's row l*512+b, column c, is the input at (l, b, c). -/
theorem merged_apply {α : Type} (x : S32x512x64.Idx → α) (l : Fin 32) (b : Fin 512) (c : Fin 64) :
    shapeCast S16384x64 x shapeCasts_S32x512x64_S16384x64 (ix2 (col l b) c) = x (ix3 l b c) := by
  refine shapeCast_apply x _ _ _ ?_
  rw [Shape.rowMajor_val_three, Shape.rowMajor_val_two]
  rfl

/-- The padded input: 512 rows of `z`, then the 16384 rows of `x`, then 512 rows of `z`. Row `r` is `z` for
    `r < 512` or `r ≥ 16896`, and row `r − 512` of `x` in between. -/
theorem padded_apply {α : Type} (x : S16384x64.Idx → α) (z : α) (r : Fin 17408) (c : Fin 64) :
    concatenate S17408x64 0 [⟨S512x64, broadcast S512x64 z⟩, ⟨S16384x64, x⟩, ⟨S512x64, broadcast S512x64 z⟩]
      concatenates_S512x64_S16384x64_S512x64_S17408x64_d0 (ix2 r c)
      = if h : 512 ≤ r.val ∧ r.val < 16896 then x (ix2 ⟨r.val - 512, by omega⟩ c) else z := by
  by_cases h1 : r.val < 512
  · rw [dif_neg (by omega)]
    exact concatenate_apply_piece 0 [⟨S512x64, broadcast S512x64 z⟩, ⟨S16384x64, x⟩, ⟨S512x64, broadcast S512x64 z⟩]
      _ (ix2 r c) 0 (by simp) S512x64 _ rfl rfl 0 rfl (ix2 ⟨r.val, h1⟩ c)
      (fun b hb => by
        match b with
        | ⟨0, _⟩ => exact absurd rfl hb
        | ⟨1, _⟩ => rfl) (by show 0 + r.val = r.val; omega)
  · by_cases h2 : r.val < 16896
    · rw [dif_pos ⟨by omega, h2⟩]
      exact concatenate_apply_piece 0 [⟨S512x64, broadcast S512x64 z⟩, ⟨S16384x64, x⟩, ⟨S512x64, broadcast S512x64 z⟩]
        _ (ix2 r c) 1 (by simp) S16384x64 _ rfl rfl 512 rfl (ix2 ⟨r.val - 512, by omega⟩ c)
        (fun b hb => by
          match b with
          | ⟨0, _⟩ => exact absurd rfl hb
          | ⟨1, _⟩ => rfl) (by show 512 + (r.val - 512) = r.val; omega)
    · rw [dif_neg (by omega)]
      exact concatenate_apply_piece 0 [⟨S512x64, broadcast S512x64 z⟩, ⟨S16384x64, x⟩, ⟨S512x64, broadcast S512x64 z⟩]
        _ (ix2 r c) 2 (by simp) S512x64 _ rfl rfl 16896 rfl (ix2 ⟨r.val - 16896, by omega⟩ c)
        (fun b hb => by
          match b with
          | ⟨0, _⟩ => exact absurd rfl hb
          | ⟨1, _⟩ => rfl) (by show 16896 + (r.val - 16896) = r.val; omega)

/-- The im2col matrix of a padded array `y`: three slices of `y` starting at rows 0, 512 and 1024, placed side by side.
    Entry (p, j) lies in slice `j / 64`, at column `j % 64`, so it is `y` at row `512·(j / 64) + p`. -/
theorem im2col_apply {α : Type} (y : S17408x64.Idx → α) (p : Fin 16384) (j : Fin 192) :
    concatenate S16384x192 1
      [⟨S16384x64, extractStridedSlice S16384x64 ![0, 0] y slices_S17408x64_o0_0_S16384x64⟩,
       ⟨S16384x64, extractStridedSlice S16384x64 ![512, 0] y slices_S17408x64_o512_0_S16384x64⟩,
       ⟨S16384x64, extractStridedSlice S16384x64 ![1024, 0] y slices_S17408x64_o1024_0_S16384x64⟩]
      concatenates_S16384x64_S16384x64_S16384x64_S16384x192_d1 (ix2 p j)
      = y (ix2 ⟨512 * (j.val / 64) + p.val, by omega⟩ ⟨j.val % 64, by omega⟩) := by
  by_cases h1 : j.val < 64
  · refine (concatenate_apply_piece 1
      [⟨S16384x64, extractStridedSlice S16384x64 ![0, 0] y slices_S17408x64_o0_0_S16384x64⟩,
       ⟨S16384x64, extractStridedSlice S16384x64 ![512, 0] y slices_S17408x64_o512_0_S16384x64⟩,
       ⟨S16384x64, extractStridedSlice S16384x64 ![1024, 0] y slices_S17408x64_o1024_0_S16384x64⟩]
      _ (ix2 p j) 0 (by simp) S16384x64 _ rfl rfl 0 rfl (ix2 p ⟨j.val, h1⟩)
      (fun b hb => by
        match b with
        | ⟨0, _⟩ => rfl
        | ⟨1, _⟩ => exact absurd rfl hb) (by show 0 + j.val = j.val; omega)).trans ?_
    exact extractStridedSlice_apply _ y _ _ _ (fun a => by
      match a with
      | ⟨0, _⟩ => show 512 * (j.val / 64) + p.val = 0 + p.val; omega
      | ⟨1, _⟩ => show j.val % 64 = 0 + j.val; omega)
  · by_cases h2 : j.val < 128
    · refine (concatenate_apply_piece 1
        [⟨S16384x64, extractStridedSlice S16384x64 ![0, 0] y slices_S17408x64_o0_0_S16384x64⟩,
         ⟨S16384x64, extractStridedSlice S16384x64 ![512, 0] y slices_S17408x64_o512_0_S16384x64⟩,
         ⟨S16384x64, extractStridedSlice S16384x64 ![1024, 0] y slices_S17408x64_o1024_0_S16384x64⟩]
        _ (ix2 p j) 1 (by simp) S16384x64 _ rfl rfl 64 rfl (ix2 p ⟨j.val - 64, by omega⟩)
        (fun b hb => by
          match b with
          | ⟨0, _⟩ => rfl
          | ⟨1, _⟩ => exact absurd rfl hb) (by show 64 + (j.val - 64) = j.val; omega)).trans ?_
      exact extractStridedSlice_apply _ y _ _ _ (fun a => by
        match a with
        | ⟨0, _⟩ => show 512 * (j.val / 64) + p.val = 512 + p.val; omega
        | ⟨1, _⟩ => show j.val % 64 = 0 + (j.val - 64); omega)
    · refine (concatenate_apply_piece 1
        [⟨S16384x64, extractStridedSlice S16384x64 ![0, 0] y slices_S17408x64_o0_0_S16384x64⟩,
         ⟨S16384x64, extractStridedSlice S16384x64 ![512, 0] y slices_S17408x64_o512_0_S16384x64⟩,
         ⟨S16384x64, extractStridedSlice S16384x64 ![1024, 0] y slices_S17408x64_o1024_0_S16384x64⟩]
        _ (ix2 p j) 2 (by simp) S16384x64 _ rfl rfl 128 rfl (ix2 p ⟨j.val - 128, by omega⟩)
        (fun b hb => by
          match b with
          | ⟨0, _⟩ => rfl
          | ⟨1, _⟩ => exact absurd rfl hb) (by show 128 + (j.val - 128) = j.val; omega)).trans ?_
      exact extractStridedSlice_apply _ y _ _ _ (fun a => by
        match a with
        | ⟨0, _⟩ => show 512 * (j.val / 64) + p.val = 1024 + p.val; omega
        | ⟨1, _⟩ => show j.val % 64 = 0 + (j.val - 128); omega)

/-- Entry (l·512 + b, j) of the im2col matrix of the zero-padded merged input is the network's tap `j` at position `l`
    of sample `b`: the padded row is 512·(l + j / 64) + b, which is a zero row exactly when `l + j / 64` is 0 or 33, and
    otherwise the merged input's row (l + j / 64 − 1)·512 + b. -/
theorem im2col_tap (x : FVec Ideal S32x512x64 .bf16) (l : Fin 32) (b : Fin 512) (j : Fin 192) :
    concatenate S16384x192 1
      [⟨S16384x64, extractStridedSlice S16384x64 ![0, 0]
          (concatenate S17408x64 0 [⟨S512x64, broadcast S512x64 (Ideal.ofBits .bf16 0x0000#16)⟩,
            ⟨S16384x64, shapeCast S16384x64 x shapeCasts_S32x512x64_S16384x64⟩,
            ⟨S512x64, broadcast S512x64 (Ideal.ofBits .bf16 0x0000#16)⟩] concatenates_S512x64_S16384x64_S512x64_S17408x64_d0)
          slices_S17408x64_o0_0_S16384x64⟩,
       ⟨S16384x64, extractStridedSlice S16384x64 ![512, 0]
          (concatenate S17408x64 0 [⟨S512x64, broadcast S512x64 (Ideal.ofBits .bf16 0x0000#16)⟩,
            ⟨S16384x64, shapeCast S16384x64 x shapeCasts_S32x512x64_S16384x64⟩,
            ⟨S512x64, broadcast S512x64 (Ideal.ofBits .bf16 0x0000#16)⟩] concatenates_S512x64_S16384x64_S512x64_S17408x64_d0)
          slices_S17408x64_o512_0_S16384x64⟩,
       ⟨S16384x64, extractStridedSlice S16384x64 ![1024, 0]
          (concatenate S17408x64 0 [⟨S512x64, broadcast S512x64 (Ideal.ofBits .bf16 0x0000#16)⟩,
            ⟨S16384x64, shapeCast S16384x64 x shapeCasts_S32x512x64_S16384x64⟩,
            ⟨S512x64, broadcast S512x64 (Ideal.ofBits .bf16 0x0000#16)⟩] concatenates_S512x64_S16384x64_S512x64_S17408x64_d0)
          slices_S17408x64_o1024_0_S16384x64⟩]
      concatenates_S16384x64_S16384x64_S16384x64_S16384x192_d1 (ix2 (col l b) j)
      = Net.tap (C := 64) (by decide) (fun l' c => x (ix3 l' b c)) l j.val := by
  rw [im2col_apply, padded_apply, LibDot.ofBits_zero_bf16]
  unfold Net.tap Net.padRow
  by_cases hp : 1 ≤ l.val + j.val / 64 ∧ l.val + j.val / 64 ≤ 32
  · rw [dif_pos hp, dif_pos (by show 512 ≤ 512 * (j.val / 64) + (l.val * 512 + b.val) ∧ 512 * (j.val / 64) + (l.val * 512 + b.val) < 16896; omega)]
    have e : (⟨512 * (j.val / 64) + (l.val * 512 + b.val) - 512, by omega⟩ : Fin 16384)
        = col ⟨l.val + j.val / 64 - 1, by omega⟩ b := Fin.ext (by show 512 * (j.val / 64) + (l.val * 512 + b.val) - 512 = (l.val + j.val / 64 - 1) * 512 + b.val; omega)
    exact (congrArg (fun r => shapeCast S16384x64 x shapeCasts_S32x512x64_S16384x64 (ix2 r ⟨j.val % 64, by omega⟩)) e).trans
      (merged_apply x _ b _)
  · rw [dif_neg hp, dif_neg (by show ¬(512 ≤ 512 * (j.val / 64) + (l.val * 512 + b.val) ∧ 512 * (j.val / 64) + (l.val * 512 + b.val) < 16896); omega)]

/-- Entry (o, l·512 + b) of the first convolution's activation is the network's convolution of sample `b`'s signal
    (position, channel), with the weights as stored and the bias column, at position `l`, channel `o`. -/
theorem conv0_apply (v0 : Vec Ideal S32x512x64 .f32) (v10 : Vec Ideal S192x128 .bf16) (v14 : Vec Ideal S128x1 .bf16)
    (o : Fin 128) (l : Fin 32) (b : Fin 512) :
    conv0 (F := Ideal) v0 v10 v14 (ix2 o (col l b))
      = Net.conv (C := 64) (by decide) (fun l' c => v0 (ix3 l' b c)) (fun j o' => v10 (ix2 j o'))
          (fun o' => v14 (ix2 o' 0)) l o := by
  simp only [conv0]
  rw [maximumf_apply, addf_apply, truncf_apply, broadcast_apply, shapeCast_self, shapeCast_self, shapeCast_self]
  rw [LibDot.matmul_01_zero_apply _ rfl rfl rfl rfl rfl rfl]
  rw [broadcastTo_apply v14 broadcasts_S128x1_S128x16384 (ix2 o (col l b)) (ix2 o 0) (fun a => by
    match a with
    | ⟨0, _⟩ => rfl
    | ⟨1, _⟩ => rfl)]
  show max (_ + _) (Ideal.ofBits .bf16 0x0000#16) = max (_ + _) 0
  rw [LibDot.ofBits_zero_bf16]
  congr 2
  refine Finset.sum_congr rfl fun j _ => ?_
  rw [mul_comm]
  congr 1
  exact im2col_tap (truncf .bf16 v0 bitsLt_bf16_f32) l b j

end Cert.KernelIdeal.Layers

end
-- ==== Proof.KConv1.lean ====
/-
  The kernel's second convolution read at an entry: output channel `o`, position `l`, sample `b` of the tile.
-/
import proofs.«174414_g2000105302243619_pallasbulk_1256_24_alg».proof.Proof.KLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Layers

open Idealize.ShloMosaic Idealize.ShloMosaic.ValueIdx Cert.KernelIdeal Cert.KernelIdeal.Gen

namespace Conv1

/-- The activation with 512 zero columns put before and after its 16384 columns. -/
def padAct (y : FVec Ideal S128x16384 .bf16) : FVec Ideal S128x17408 .bf16 :=
  concatenate S128x17408 1 [⟨S128x512, broadcast S128x512 (Scalar.ofBits .bf16 0x0000#16 : Ideal .bf16)⟩, ⟨S128x16384, y⟩,
    ⟨S128x512, broadcast S128x512 (Scalar.ofBits .bf16 0x0000#16 : Ideal .bf16)⟩]
    concatenates_S128x512_S128x16384_S128x512_S128x17408_d1

/-- A column before the 512th is one of the leading zero columns. -/
theorem padAct_left (y : FVec Ideal S128x16384 .bf16) (c : Fin 128) (q : Fin 17408) (hq : q.val < 512) :
    padAct y (ix2 c q) = 0 := by
  unfold padAct
  rw [concatenate_apply_piece 1 _ _ (ix2 c q) 0 (by show _ < 3; omega) S128x512 _ rfl rfl 0 rfl (ix2 c ⟨q.val, hq⟩)
    (fun b hb => by
      match b with
      | ⟨0, _⟩ => rfl
      | ⟨1, _⟩ => exact absurd rfl hb)
    (by show 0 + q.val = q.val; omega)]
  rw [broadcast_apply]
  exact LibDot.ofBits_zero_bf16

/-- A column from the 512th up to the 16895th is the activation's column 512 places earlier. -/
theorem padAct_mid (y : FVec Ideal S128x16384 .bf16) (c : Fin 128) (q : Fin 17408) (r : Fin 16384)
    (hq : q.val = 512 + r.val) : padAct y (ix2 c q) = y (ix2 c r) := by
  unfold padAct
  rw [concatenate_apply_piece 1 _ _ (ix2 c q) 1 (by show _ < 3; omega) S128x16384 y rfl rfl 512 rfl (ix2 c r)
    (fun b hb => by
      match b with
      | ⟨0, _⟩ => rfl
      | ⟨1, _⟩ => exact absurd rfl hb)
    (by show 512 + r.val = q.val; omega)]

/-- A column from the 16896th on is one of the trailing zero columns. -/
theorem padAct_right (y : FVec Ideal S128x16384 .bf16) (c : Fin 128) (q : Fin 17408) (hq : 16896 ≤ q.val) :
    padAct y (ix2 c q) = 0 := by
  unfold padAct
  rw [concatenate_apply_piece 1 _ _ (ix2 c q) 2 (by show _ < 3; omega) S128x512 _ rfl rfl 16896 rfl
    (ix2 c ⟨q.val - 16896, by have := q.isLt; omega⟩)
    (fun b hb => by
      match b with
      | ⟨0, _⟩ => rfl
      | ⟨1, _⟩ => exact absurd rfl hb)
    (by show 16896 + (q.val - 16896) = q.val; omega)]
  rw [broadcast_apply]
  exact LibDot.ofBits_zero_bf16

/-- The padded activation read at the column of position `l`, sample `b` shifted by `k` blocks of 512 columns is row
    `l + k` of sample `b`'s feature map padded with one zero row at each end: block 0 and block 33 are the zero
    columns, block `l + k` in between is position `l + k - 1`. -/
theorem padAct_tap (y : FVec Ideal S128x16384 .bf16) (l : Fin 32) (b : Fin 512) (k : ℕ) (hk : k < 3) (c : Fin 128)
    (q : Fin 17408) (hq : q.val = 512 * k + (l.val * 512 + b.val)) :
    padAct y (ix2 c q) = Net.padRow (fun l' c' => y (ix2 c' (col l' b))) (l.val + k) c := by
  have hl := l.isLt
  have hb := b.isLt
  unfold Net.padRow
  by_cases hp : 1 ≤ l.val + k ∧ l.val + k ≤ 32
  · rw [dif_pos hp]
    exact padAct_mid y c q (col ⟨l.val + k - 1, by omega⟩ b)
      (by show q.val = 512 + ((l.val + k - 1) * 512 + b.val); omega)
  · rw [dif_neg hp]
    by_cases h0 : l.val + k = 0
    · exact padAct_left y c q (by omega)
    · exact padAct_right y c q (by omega)

/-- The im2col matrix of the second convolution: the three column-shifted windows of the padded activation stacked on
    rows. -/
def im2col (y : FVec Ideal S128x16384 .bf16) : FVec Ideal S384x16384 .bf16 :=
  concatenate S384x16384 0
    [⟨S128x16384, extractStridedSlice S128x16384 ![0, 0] (padAct y) slices_S128x17408_o0_0_S128x16384⟩,
      ⟨S128x16384, extractStridedSlice S128x16384 ![0, 512] (padAct y) slices_S128x17408_o0_512_S128x16384⟩,
      ⟨S128x16384, extractStridedSlice S128x16384 ![0, 1024] (padAct y) slices_S128x17408_o0_1024_S128x16384⟩]
    concatenates_S128x16384_S128x16384_S128x16384_S384x16384_d0

/-- Row `j` of the im2col matrix is row `j % 128` of window `j / 128`, and window `k` at column `p` is the padded
    activation's column `512 k + p`. -/
theorem im2col_apply (y : FVec Ideal S128x16384 .bf16) (j : Fin 384) (p : Fin 16384) :
    im2col y (ix2 j p)
      = padAct y (ix2 ⟨j.val % 128, Nat.mod_lt _ (by decide)⟩
          ⟨512 * (j.val / 128) + p.val, by have := j.isLt; have := p.isLt; omega⟩) := by
  have hj := j.isLt
  have hp := p.isLt
  unfold im2col
  rcases (by omega : j.val < 128 ∨ (128 ≤ j.val ∧ j.val < 256) ∨ 256 ≤ j.val) with h | h | h
  · rw [concatenate_apply_piece 0 _ _ (ix2 j p) 0 (by show _ < 3; omega) S128x16384 _ rfl rfl 0 rfl
      (ix2 ⟨j.val % 128, Nat.mod_lt _ (by decide)⟩ p)
      (fun a ha => by
        match a with
        | ⟨0, _⟩ => exact absurd rfl ha
        | ⟨1, _⟩ => rfl)
      (by show 0 + j.val % 128 = j.val; omega)]
    exact extractStridedSlice_apply _ _ _ _ _ (fun a => by
      match a with
      | ⟨0, _⟩ => show j.val % 128 = 0 + j.val % 128; omega
      | ⟨1, _⟩ => show 512 * (j.val / 128) + p.val = 0 + p.val; omega)
  · rw [concatenate_apply_piece 0 _ _ (ix2 j p) 1 (by show _ < 3; omega) S128x16384 _ rfl rfl 128 rfl
      (ix2 ⟨j.val % 128, Nat.mod_lt _ (by decide)⟩ p)
      (fun a ha => by
        match a with
        | ⟨0, _⟩ => exact absurd rfl ha
        | ⟨1, _⟩ => rfl)
      (by show 128 + j.val % 128 = j.val; omega)]
    exact extractStridedSlice_apply _ _ _ _ _ (fun a => by
      match a with
      | ⟨0, _⟩ => show j.val % 128 = 0 + j.val % 128; omega
      | ⟨1, _⟩ => show 512 * (j.val / 128) + p.val = 512 + p.val; omega)
  · rw [concatenate_apply_piece 0 _ _ (ix2 j p) 2 (by show _ < 3; omega) S128x16384 _ rfl rfl 256 rfl
      (ix2 ⟨j.val % 128, Nat.mod_lt _ (by decide)⟩ p)
      (fun a ha => by
        match a with
        | ⟨0, _⟩ => exact absurd rfl ha
        | ⟨1, _⟩ => rfl)
      (by show 256 + j.val % 128 = j.val; omega)]
    exact extractStridedSlice_apply _ _ _ _ _ (fun a => by
      match a with
      | ⟨0, _⟩ => show j.val % 128 = 0 + j.val % 128; omega
      | ⟨1, _⟩ => show 512 * (j.val / 128) + p.val = 1024 + p.val; omega)

/-- Entry (j, l·512 + b) of the im2col matrix is entry `j` of the network's im2col row of position `l` for sample `b`. -/
theorem im2col_tap (y : FVec Ideal S128x16384 .bf16) (l : Fin 32) (b : Fin 512) (j : Fin 384) :
    im2col y (ix2 j (col l b))
      = Net.tap (C := 128) (by decide) (fun l' c => y (ix2 c (col l' b))) l j.val := by
  have hj := j.isLt
  rw [im2col_apply]
  unfold Net.tap
  exact padAct_tap y l b (j.val / 128) (by omega) _ _ rfl

end Conv1

/-- Entry (o, l·512 + b) of the second convolution's activation is the network's convolution of sample `b`'s
    feature map (position, channel) read off the incoming activation's columns, with the transposed weights and the
    bias column, at position `l`, channel `o`. -/
theorem conv1_apply (y : FVec Ideal S128x16384 .bf16) (v26 : Vec Ideal S128x384 .bf16) (v30 : Vec Ideal S128x1 .bf16)
    (o : Fin 128) (l : Fin 32) (b : Fin 512) :
    conv1 (F := Ideal) y v26 v30 (ix2 o (col l b))
      = Net.conv (C := 128) (by decide) (fun l' c => y (ix2 c (col l' b))) (fun j o' => v26 (ix2 o' j))
          (fun o' => v30 (ix2 o' 0)) l o := by
  simp only [conv1]
  rw [maximumf_apply, addf_apply, truncf_apply, broadcast_apply, shapeCast_self, shapeCast_self]
  rw [LibDot.matmul_10_zero_apply _ rfl rfl rfl rfl rfl rfl]
  rw [broadcastTo_apply v30 broadcasts_S128x1_S128x16384 (ix2 o (col l b)) (ix2 o 0) (fun a => by
    match a with
    | ⟨0, _⟩ => rfl
    | ⟨1, _⟩ => rfl)]
  show max (_ + _) (Ideal.ofBits .bf16 0x0000#16) = max (_ + _) 0
  rw [LibDot.ofBits_zero_bf16]
  congr 2
  refine Finset.sum_congr rfl fun j _ => ?_
  rw [mul_comm]
  congr 1
  exact Conv1.im2col_tap y l b j

end Cert.KernelIdeal.Layers

end
-- ==== Proof.KFlat.lean ====
/-
  The kernel's flatten and first dense layer read at an entry.
-/
import proofs.«174414_g2000105302243619_pallasbulk_1256_24_alg».proof.Proof.KLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Layers

open Idealize.ShloMosaic Idealize.ShloMosaic.ValueIdx Cert.KernelIdeal Cert.KernelIdeal.Gen

/-- One position slice read at an entry: the slice starting at column `off` read at (c, b) is the activation's entry
    (c, off + b). -/
private theorem piece_apply (y : FVec Ideal S128x16384 .bf16) (off : ℕ) (h : S128x16384.Slices ![0, off] S128x512)
    (c : Fin 128) (b : Fin 512) (k : Fin 16384) (hk : k.val = off + b.val) :
    extractStridedSlice S128x512 ![0, off] y h (ix2 c b) = y (ix2 c k) :=
  extractStridedSlice_apply _ y h (ix2 c b) (ix2 c k) (fun a => by
    match a with
    | ⟨0, _⟩ => exact (Nat.zero_add _).symm
    | ⟨1, _⟩ => exact hk)

set_option hygiene false in
/-- Rows `128·n … 128·n + 127` of the stack are the `n`-th slice, whose columns start at `512·n`: with `r / 128 = n`,
    entry (r, b) of the stack is the slice's entry (r % 128, b), which is the activation's entry (r % 128, 512·n + b).
    The `n` slices before it have 128 rows each. -/
local macro "flat_piece " n:num : tactic => `(tactic| (
  refine (concatenate_apply_piece (0 : Fin 2) _ _ (ix2 r b) $n (by simp) S128x512 _ rfl rfl (128 * $n) (by simp)
    (ix2 (⟨r.val % 128, Nat.mod_lt _ (by decide)⟩ : Fin 128) b)
    (fun a ha => by
      match a with
      | ⟨0, _⟩ => exact absurd rfl ha
      | ⟨1, _⟩ => rfl)
    (by show 128 * $n + r.val % 128 = r.val; omega)).trans ?_
  exact piece_apply y _ _ _ b _ (by show r.val / 128 * 512 + b.val = _ + b.val; omega)))

/-- Row `r` of the flattened activation is channel `r % 128` at position `r / 128`: entry (r, b) is the activation's
    entry (r % 128, (r / 128)·512 + b). -/
theorem flat_apply (y : FVec Ideal S128x16384 .bf16) (r : Fin 4096) (b : Fin 512) :
    flat (F := Ideal) y (ix2 r b)
      = y (ix2 (⟨r.val % 128, Nat.mod_lt _ (by decide)⟩ : Fin 128) (col ⟨r.val / 128, by omega⟩ b)) := by
  obtain ⟨n, hn32, hn⟩ : ∃ n : ℕ, n < 32 ∧ r.val / 128 = n := ⟨r.val / 128, by omega, rfl⟩
  unfold flat
  interval_cases n
  · flat_piece 0
  · flat_piece 1
  · flat_piece 2
  · flat_piece 3
  · flat_piece 4
  · flat_piece 5
  · flat_piece 6
  · flat_piece 7
  · flat_piece 8
  · flat_piece 9
  · flat_piece 10
  · flat_piece 11
  · flat_piece 12
  · flat_piece 13
  · flat_piece 14
  · flat_piece 15
  · flat_piece 16
  · flat_piece 17
  · flat_piece 18
  · flat_piece 19
  · flat_piece 20
  · flat_piece 21
  · flat_piece 22
  · flat_piece 23
  · flat_piece 24
  · flat_piece 25
  · flat_piece 26
  · flat_piece 27
  · flat_piece 28
  · flat_piece 29
  · flat_piece 30
  · flat_piece 31

/-- Entry (d, b) of the first dense layer's activation is the network's dense layer on sample `b`'s column of the
    flattened activation. -/
theorem dense0_apply (z : FVec Ideal S4096x512 .bf16) (v69 : Vec Ideal S4096x256 .bf16) (v73 : Vec Ideal S256x1 .bf16)
    (d : Fin 256) (b : Fin 512) :
    dense0 (F := Ideal) z v69 v73 (ix2 d b)
      = Net.dense (fun r => z (ix2 r b)) (fun r d' => v69 (ix2 r d')) (fun d' => v73 (ix2 d' 0)) d := by
  simp only [dense0]
  rw [maximumf_apply, addf_apply, truncf_apply, broadcast_apply, shapeCast_self, shapeCast_self]
  rw [LibDot.matmul_00_zero_apply _ rfl rfl rfl rfl rfl rfl]
  rw [broadcastTo_apply v73 broadcasts_S256x1_S256x512 (ix2 d b) (ix2 d 0) (fun a => by
    match a with
    | ⟨0, _⟩ => rfl
    | ⟨1, _⟩ => rfl)]
  show max (_ + _) (Ideal.ofBits .bf16 0x0000#16) = max (_ + _) 0
  rw [LibDot.ofBits_zero_bf16]
  congr 2
  exact Finset.sum_congr rfl fun r _ => mul_comm _ _

end Cert.KernelIdeal.Layers

end
-- ==== Proof.KTail.lean ====
/-
  The kernel's second dense layer and output layer read at an entry.
-/
import proofs.«174414_g2000105302243619_pallasbulk_1256_24_alg».proof.Proof.KLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Layers

open Idealize.ShloMosaic Idealize.ShloMosaic.ValueIdx Cert.KernelIdeal Cert.KernelIdeal.Gen

/-- Entry (e, b) of the second dense layer's activation is the network's dense layer on sample `b`'s column, with the
    transposed weights. -/
theorem dense1_apply (z : FVec Ideal S256x512 .bf16) (v79 : Vec Ideal S128x256 .bf16) (v83 : Vec Ideal S128x1 .bf16)
    (e : Fin 128) (b : Fin 512) :
    dense1 (F := Ideal) z v79 v83 (ix2 e b)
      = Net.dense (fun d => z (ix2 d b)) (fun d e' => v79 (ix2 e' d)) (fun e' => v83 (ix2 e' 0)) e := by
  simp only [dense1]
  rw [maximumf_apply, addf_apply, truncf_apply, broadcast_apply, shapeCast_self, shapeCast_self]
  rw [LibDot.matmul_10_zero_apply _ rfl rfl rfl rfl rfl rfl]
  rw [broadcastTo_apply v83 broadcasts_S128x1_S128x512 (ix2 e b) (ix2 e 0) (fun a => by
    match a with
    | ⟨0, _⟩ => rfl
    | ⟨1, _⟩ => rfl)]
  show max (_ + _) (Ideal.ofBits .bf16 0x0000#16) = max (_ + _) 0
  rw [LibDot.ofBits_zero_bf16]
  congr 2
  exact Finset.sum_congr rfl fun d _ => mul_comm _ _

/-- Entry (b, n) of the stored block is the network's last layer on sample `b`'s column. -/
theorem out_apply (z : FVec Ideal S128x512 .bf16) (v89 : Vec Ideal S128x128 .bf16) (v92 : Vec Ideal S1x128 .f32)
    (b : Fin 512) (n : Fin 128) :
    k0_pay1 (F := Ideal) z v89 v92 (ix2 b n)
      = Net.affine (fun e => z (ix2 e b)) (fun e n' => v89 (ix2 e n')) (fun n' => v92 (ix2 0 n')) n := by
  simp only [k0_pay1]
  rw [addf_apply, shapeCast_self]
  rw [LibDot.matmul_00_zero_apply _ rfl rfl rfl rfl rfl rfl]
  rw [broadcastTo_apply v92 broadcasts_S1x128_S512x128 (ix2 b n) (ix2 0 n) (fun a => by
    match a with
    | ⟨0, _⟩ => rfl
    | ⟨1, _⟩ => rfl)]
  rfl

end Cert.KernelIdeal.Layers

end
-- ==== Proof.KBlock.lean ====
/-
  The kernel body's stored block, entry by entry: row `b` of the block is the network applied to sample `b` of the
  tile. The layers compose: the stored value is the output layer of the second dense layer of the first dense layer of
  the flattened second convolution of the first convolution, and each layer read at an entry is the network's layer on
  that sample; the flattened row `r` reads position `r / 128`, channel `r % 128`, as the network's flatten does.
-/
import proofs.«174414_g2000105302243619_pallasbulk_1256_24_alg».proof.Proof.KConv0
import proofs.«174414_g2000105302243619_pallasbulk_1256_24_alg».proof.Proof.KConv1
import proofs.«174414_g2000105302243619_pallasbulk_1256_24_alg».proof.Proof.KFlat
import proofs.«174414_g2000105302243619_pallasbulk_1256_24_alg».proof.Proof.KTail

noncomputable section

open scoped BigOperators

namespace Cert.KernelIdeal.Layers

open Idealize.ShloMosaic Idealize.ShloMosaic.ValueIdx Cert.KernelIdeal Cert.KernelIdeal.Gen

/-- The payload the body stores, as the layers composed. -/
theorem pay_eq_layers (x0 : Vec Ideal S32x512x64 .f32) (x1 : Vec Ideal S192x128 .bf16) (x2 : Vec Ideal S128x1 .bf16)
    (x3 : Vec Ideal S128x384 .bf16) (x4 : Vec Ideal S128x1 .bf16) (x5 : Vec Ideal S4096x256 .bf16) (x6 : Vec Ideal S256x1 .bf16)
    (x7 : Vec Ideal S128x256 .bf16) (x8 : Vec Ideal S128x1 .bf16) (x9 : Vec Ideal S128x128 .bf16) (x10 : Vec Ideal S1x128 .f32) :
    k0_pay1 (F := Ideal) (k0_pay9 (k0_pay2 x0 x1 x2 x3 x4) (k0_pay3 x0 x1 x2 x3 x4) (k0_pay4 x0 x1 x2 x3 x4) (k0_pay5 x0 x1 x2 x3 x4)
        (k0_pay6 x0 x1 x2 x3 x4) (k0_pay7 x0 x1 x2 x3 x4) (k0_pay8 x0 x1 x2 x3 x4) x5 x6 x7 x8) x9 x10
      = k0_pay1 (F := Ideal) (dense1 (dense0 (flat (conv1 (conv0 x0 x1 x2) x3 x4)) x5 x6) x7 x8) x9 x10 := rfl

/-- Entry (b, n) of the stored block is output `n` of the network on sample `b` of the tile: the sample's signal is the
    input tile's (·, b, ·) slice read (channel, position); the first convolution's weights and the two plain weight
    matrices are read as stored, the second convolution's and the second dense layer's weights transposed, and the four
    hidden biases are columns. -/
theorem pay_apply (x0 : Vec Ideal S32x512x64 .f32) (x1 : Vec Ideal S192x128 .bf16) (x2 : Vec Ideal S128x1 .bf16)
    (x3 : Vec Ideal S128x384 .bf16) (x4 : Vec Ideal S128x1 .bf16) (x5 : Vec Ideal S4096x256 .bf16) (x6 : Vec Ideal S256x1 .bf16)
    (x7 : Vec Ideal S128x256 .bf16) (x8 : Vec Ideal S128x1 .bf16) (x9 : Vec Ideal S128x128 .bf16) (x10 : Vec Ideal S1x128 .f32)
    (b : Fin 512) (n : Fin 128) :
    k0_pay1 (F := Ideal) (k0_pay9 (k0_pay2 x0 x1 x2 x3 x4) (k0_pay3 x0 x1 x2 x3 x4) (k0_pay4 x0 x1 x2 x3 x4) (k0_pay5 x0 x1 x2 x3 x4)
        (k0_pay6 x0 x1 x2 x3 x4) (k0_pay7 x0 x1 x2 x3 x4) (k0_pay8 x0 x1 x2 x3 x4) x5 x6 x7 x8) x9 x10 (ix2 b n)
      = Net.net (fun c l => x0 (ix3 l b c)) (fun j o => x1 (ix2 j o)) (fun o => x2 (ix2 o 0)) (fun j o => x3 (ix2 o j))
          (fun o => x4 (ix2 o 0)) (fun r d => x5 (ix2 r d)) (fun d => x6 (ix2 d 0)) (fun d e => x7 (ix2 e d))
          (fun e => x8 (ix2 e 0)) (fun e n' => x9 (ix2 e n')) (fun n' => x10 (ix2 0 n')) n := by
  rw [pay_eq_layers, out_apply]
  simp only [dense1_apply, dense0_apply, flat_apply, conv1_apply, conv0_apply]
  rfl

end Cert.KernelIdeal.Layers

end
-- ==== Proof.NetArr.lean ====
/-
  The network applied to every sample of the batch: the function of the eleven argument arrays that both programs'
  result arrays hold. Row `B` of the result is the network on sample `B`, the sample's signal being the input's
  (B, ·, ·) slice (channel, position); every weight matrix is read as stored and every bias is a row.
-/
import proofs.«174414_g2000105302243619_pallasbulk_1256_24_alg».proof.Proof.Net

noncomputable section

namespace Cert.Net

open Idealize.ShloMosaic Idealize.ShloMosaic.ValueIdx

/-- The result array as one function of the argument arrays, index by index. -/
def G (a0 : (⟨3, ![4096, 64, 32]⟩ : Shape).Idx → EReal) (a1 : (⟨2, ![192, 128]⟩ : Shape).Idx → EReal)
    (a2 : (⟨2, ![1, 128]⟩ : Shape).Idx → EReal) (a3 : (⟨2, ![384, 128]⟩ : Shape).Idx → EReal)
    (a4 : (⟨2, ![1, 128]⟩ : Shape).Idx → EReal) (a5 : (⟨2, ![4096, 256]⟩ : Shape).Idx → EReal)
    (a6 : (⟨2, ![1, 256]⟩ : Shape).Idx → EReal) (a7 : (⟨2, ![256, 128]⟩ : Shape).Idx → EReal)
    (a8 : (⟨2, ![1, 128]⟩ : Shape).Idx → EReal) (a9 : (⟨2, ![128, 128]⟩ : Shape).Idx → EReal)
    (a10 : (⟨2, ![1, 128]⟩ : Shape).Idx → EReal) : (⟨2, ![4096, 128]⟩ : Shape).Idx → EReal :=
  fun i => net (fun ch l => a0 (ix3 (i 0 : Fin 4096) ch l)) (fun j o => a1 (ix2 j o)) (fun o => a2 (ix2 0 o))
    (fun j o => a3 (ix2 j o)) (fun o => a4 (ix2 0 o)) (fun r d => a5 (ix2 r d)) (fun d => a6 (ix2 0 d))
    (fun d e => a7 (ix2 d e)) (fun e => a8 (ix2 0 e)) (fun e n => a9 (ix2 e n)) (fun n => a10 (ix2 0 n)) (i 1 : Fin 128)

end Cert.Net

end
-- ==== Proof.KValue.lean ====
/-
  What the kernel's result array holds after the run: the network applied to every sample.

  At grid point `t` the body stores, at entry (b, n) of the output's block, output `n` of the network on sample `b` of
  the input's block; that sample is row `B = 512 · (block index) + b` of the batch, the weights and biases the region
  reads are the arguments read at transposed indices, so the block written back is block `t` of the one function
  `Net.G` of the arguments. The eight blocks cover the array, so it ends holding that function.
-/
import proofs.«174414_g2000105302243619_pallasbulk_1256_24_alg».proof.Proof.KRead
import proofs.«174414_g2000105302243619_pallasbulk_1256_24_alg».proof.Proof.KBlock
import proofs.«174414_g2000105302243619_pallasbulk_1256_24_alg».proof.Proof.NetArr

noncomputable section

namespace Cert.KernelIdeal.RegVal

open Cert.KernelIdeal Cert.KernelIdeal.Gen Cert.KernelIdeal.Read Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The network on every sample, of core `c`'s argument arrays. -/
abbrev Gm (c : Dev nD) : S4096x128.Idx → EReal :=
  Net.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` writes back is block `t` of the network's function of the arguments. -/
theorem flushed_eq (c : Dev nD) (t : Fin cfg0.N) :
    (dats m 0 c).flushed 11 t = ((cfg0.win 11).blk t).view.read (Elt Ideal) (Gm m c) := by
  rw [Cert.KernelIdeal.Value.flushed11]
  unfold out0_11
  rw [View.canon_unit_zero hz2]
  simp only [View.ld_unit_zero (S := S32x512x64) hz3, View.ld_unit_zero (S := S192x128) hz2, View.ld_unit_zero (S := S128x1) hz2, View.ld_unit_zero (S := S128x384) hz2, View.ld_unit_zero (S := S4096x256) hz2, View.ld_unit_zero (S := S256x1) hz2, View.ld_unit_zero (S := S128x256) hz2, View.ld_unit_zero (S := S128x128) hz2, View.ld_unit_zero (S := S1x128) hz2]
  obtain ⟨h0a, h0b, h0c, h1a, h1b, h2a, h2b, h3a, h3b, h4a, h4b, h5a, h5b, h6a, h6b, h7a, h7b, h8a, h8b, h9a, h9b, h10a, h10b, h11a, h11b⟩ := idx_facts t
  funext j
  obtain ⟨b, n, rfl⟩ : ∃ (b : Fin 512) (n : Fin 128), j = ix2 b n := ⟨j 0, j 1, eq_ix2 j⟩
  refine (Cert.KernelIdeal.Layers.pay_apply (blk0 m c t) (blk1 m c t) (blk2 m c t) (blk3 m c t) (blk4 m c t) (blk5 m c t)
    (blk6 m c t) (blk7 m c t) (blk8 m c t) (blk9 m c t) (blk10 m c t) b n).trans ?_
  -- the sample's row of the batch
  have hBlt : win0_11.index t (0 : Fin 2) * 512 + b.val < 4096 := by have := b.isLt; omega
  have hemb : ((cfg0.win 11).blk t).view.emb (ix2 b n) = (ix2 (⟨win0_11.index t (0 : Fin 2) * 512 + b.val, hBlt⟩ : Fin 4096) n : S4096x128.Idx) := by
    funext a; apply Fin.ext
    match a with
    | ⟨0, _⟩ => show win0_11.index t (0 : Fin 2) * 512 + 1 * b.val = win0_11.index t (0 : Fin 2) * 512 + b.val; omega
    | ⟨1, _⟩ => show win0_11.index t (1 : Fin 2) * 128 + 1 * n.val = n.val; omega
  show _ = Gm m c (((cfg0.win 11).blk t).view.emb (ix2 b n))
  rw [hemb]
  have e0 : (fun ch l => blk0 m c t (ix3 l b ch))
      = fun ch l => ((m ((c : Thread nD τ).loc main_arg0)) : S4096x64x32.Idx → EReal) (ix3 (⟨win0_11.index t (0 : Fin 2) * 512 + b.val, hBlt⟩ : Fin 4096) ch l) := by
    funext ch l; rw [blk0_apply m c t l b ch ⟨win0_11.index t (0 : Fin 2) * 512 + b.val, hBlt⟩ rfl, V_v0_apply]
  have e1 : (fun j o => blk1 m c t (ix2 j o)) = fun j o => ((m ((c : Thread nD τ).loc main_arg1)) : S192x128.Idx → EReal) (ix2 j o) := by
    funext j o; rw [blk1_eq, V_v1_eq]
  have e2 : (fun o => blk2 m c t (ix2 o 0)) = fun o => ((m ((c : Thread nD τ).loc main_arg2)) : S1x128.Idx → EReal) (ix2 0 o) := by
    funext o; rw [blk2_eq, V_v9_apply]
  have e3 : (fun j o => blk3 m c t (ix2 o j)) = fun j o => ((m ((c : Thread nD τ).loc main_arg3)) : S384x128.Idx → EReal) (ix2 j o) := by
    funext j o; rw [blk3_eq, V_v3_apply]
  have e4 : (fun o => blk4 m c t (ix2 o 0)) = fun o => ((m ((c : Thread nD τ).loc main_arg4)) : S1x128.Idx → EReal) (ix2 0 o) := by
    funext o; rw [blk4_eq, V_v11_apply]
  have e5 : (fun r d => blk5 m c t (ix2 r d)) = fun r d => ((m ((c : Thread nD τ).loc main_arg5)) : S4096x256.Idx → EReal) (ix2 r d) := by
    funext r d; rw [blk5_eq, V_v4_eq]
  have e6 : (fun d => blk6 m c t (ix2 d 0)) = fun d => ((m ((c : Thread nD τ).loc main_arg6)) : S1x256.Idx → EReal) (ix2 0 d) := by
    funext d; rw [blk6_eq, V_v13_apply]
  have e7 : (fun d e => blk7 m c t (ix2 e d)) = fun d e => ((m ((c : Thread nD τ).loc main_arg7)) : S256x128.Idx → EReal) (ix2 d e) := by
    funext d e; rw [blk7_eq, V_v6_apply]
  have e8 : (fun e => blk8 m c t (ix2 e 0)) = fun e => ((m ((c : Thread nD τ).loc main_arg8)) : S1x128.Idx → EReal) (ix2 0 e) := by
    funext e; rw [blk8_eq, V_v15_apply]
  have e9 : (fun e n' => blk9 m c t (ix2 e n')) = fun e n' => ((m ((c : Thread nD τ).loc main_arg9)) : S128x128.Idx → EReal) (ix2 e n') := by
    funext e n'; rw [blk9_eq, V_v7_eq]
  have e10 : (fun n' => blk10 m c t (ix2 0 n')) = fun n' => ((m ((c : Thread nD τ).loc main_arg10)) : S1x128.Idx → EReal) (ix2 0 n') := by
    funext n'; rw [blk10_eq, V_main_arg10]
  rw [e0, e1, e2, e3, e4, e5, e6, e7, e8, e9, e10]
  rfl

/-- The output array after the run is the network's function of the arguments: the blocks cover it. -/
theorem final (c : Dev nD) : (dats m 0 c).arrAt 11 cfg0.N = Gm m c :=
  (dats m 0 c).arrAt_eq_of_cover 11 (Gm m c) (fun t _ => flushed_eq m c t) cover11

/-- The run re-posted: the result array at the network's function of the arguments, the arguments unchanged. -/
theorem run : θ_run defs (onTc (τ := τ) (main (F := Ideal))) ⟨m, fun _ => 0, ρ⟩ fun r => ∀ c : Dev nD,
      r.2.mem ((c : Thread nD τ).loc main_v16) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.RegVal

end
-- ==== Proof.RRead.lean ====
/-
  How the reference's region reads its arrays, and what those arrays hold.

  The grid has 32 points; point `t` takes samples `128 t … 128 t + 127` of the transposed input (sample, position,
  channel) and of the output (sample, output unit); every weight and bias window is the whole argument array at every
  point. Before the region the host only transposes the input's last two axes.
-/
import proofs.«174414_g2000105302243619_pallasbulk_1256_24_alg».proof.Proof.Gen.ReferenceIdeal.Value
import proofs.«174414_g2000105302243619_pallasbulk_1256_24_alg».proof.Proof.Net
import Idealize.ShloMosaic.Lib.ValueIdx
import Idealize.ShloMosaic.Lib.Pipeline.Value
import Idealize.ShloMosaic.Lib.StableHlo.Run

noncomputable section

namespace Cert.ReferenceIdeal.Read

open Cert.ReferenceIdeal Cert.ReferenceIdeal.Gen Idealize.ShloMosaic Idealize.ShloMosaic.ValueIdx Idealize.ShloMosaic.TcCoe Idealize.SL.Sem
open Idealize.ShloMosaic.StableHlo (after_cons after_nil)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the input's block moves along the sample axis with the output's
    block; every other window stays at block (0, 0); the output's block index is below 32 on the sample axis and 0 on
    the other. -/
theorem idx_facts : ∀ t : Fin cfg0.N,
    win0_0.index t (0 : Fin 3) = win0_11.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) ≤ 31 ∧ win0_11.index t (1 : Fin 2) = 0 :=
  (by decide +kernel : ∀ t : Fin grid0.N, _)

/-- Every block of the output along the sample axis is some point's. -/
theorem idx_onto : ∀ q : Fin 32, ∃ t : Fin cfg0.N, win0_11.index t = ![q.val, 0] :=
  (by decide +kernel : ∀ q : Fin 32, ∃ t : Fin grid0.N, win0_11.index t = ![q.val, 0])

/-- The transposed input at (sample, position, channel) is the argument at (sample, channel, position). -/
theorem V_v0_apply (c : Dev nD) (B : Fin 4096) (l : Fin 32) (ch : Fin 64) :
    (V m c main_v0 : S4096x32x64.Idx → EReal) (ix3 B l ch) = ((m ((c : Thread nD τ).loc main_arg0)) : S4096x64x32.Idx → EReal) (ix3 B ch l) := by
  have e : @Eq (S4096x32x64.Idx → EReal) (V m c main_v0) (transpose S4096x32x64 [0, 2, 1] ((m ((c : Thread nD τ).loc main_arg0)) : S4096x64x32.Idx → EReal) transposes_S4096x64x32_S4096x32x64_0_2_1) := by
    dsimp only [Gen.V, Gen.hostOps0]; after_results <;> rfl
  rw [e]
  exact transpose_apply [0, 2, 1] _ _ (ix3 B l ch) (ix3 B ch l) (fun b => by
    match b with
    | ⟨0, _⟩ => rfl
    | ⟨1, _⟩ => rfl
    | ⟨2, _⟩ => rfl)

/-! ## The windows' blocks -/

/-- The input window's block at a point, at its literal type. -/
abbrev blk0 (c : Dev nD) (t : Fin cfg0.N) : S128x32x64.Idx → EReal := iblk m c 0 t
/-- Entry (b, position, channel) of the input's block at point `t` is the transposed input's entry at sample
    `B = 128 · (the output's block index) + b`. -/
theorem blk0_apply (c : Dev nD) (t : Fin cfg0.N) (b : Fin 128) (l : Fin 32) (ch : Fin 64) (B : Fin 4096)
    (hB : B.val = win0_11.index t (0 : Fin 2) * 128 + b.val) :
    blk0 m c t (ix3 b l ch) = (V m c main_v0 : S4096x32x64.Idx → EReal) (ix3 B l ch) := by
  obtain ⟨h0a, h0b, h0c, h1a, h1b, h2a, h2b, h3a, h3b, h4a, h4b, h5a, h5b, h6a, h6b, h7a, h7b, h8a, h8b, h9a, h9b, h10a, h10b, h11a, h11b⟩ := idx_facts t
  show (V m c main_v0 : S4096x32x64.Idx → EReal) (((cfg0.win 0).blk t).view.emb (ix3 b l ch)) = _
  refine congrArg _ (funext fun a => Fin.ext ?_)
  match a with
  | ⟨0, _⟩ => show win0_0.index t (0 : Fin 3) * 128 + 1 * b.val = B.val; omega
  | ⟨1, _⟩ => show win0_0.index t (1 : Fin 3) * 32 + 1 * l.val = l.val; omega
  | ⟨2, _⟩ => show win0_0.index t (2 : Fin 3) * 64 + 1 * ch.val = ch.val; omega

/-- Window 1's block at a point, at its literal type. -/
abbrev blk1 (c : Dev nD) (t : Fin cfg0.N) : S192x128.Idx → EReal := iblk m c 1 t
/-- Window 1 is the whole argument array at every point. -/
theorem blk1_eq (c : Dev nD) (t : Fin cfg0.N) : blk1 m c t = (m ((c : Thread nD τ).loc main_arg1) : S192x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg1 : S192x128.Idx → EReal) (((cfg0.win 1).blk t).view.emb y) = _
  rw [V_main_arg1]
  refine congrArg _ (funext fun a => Fin.ext ?_)
  match a with
  | ⟨0, _⟩ => show win0_1.index t (0 : Fin 2) * 192 + 1 * (y 0).val = (y 0).val; omega
  | ⟨1, _⟩ => show win0_1.index t (1 : Fin 2) * 128 + 1 * (y 1).val = (y 1).val; omega

/-- Window 2's block at a point, at its literal type. -/
abbrev blk2 (c : Dev nD) (t : Fin cfg0.N) : S1x128.Idx → EReal := iblk m c 2 t
/-- Window 2 is the whole argument array at every point. -/
theorem blk2_eq (c : Dev nD) (t : Fin cfg0.N) : blk2 m c t = (m ((c : Thread nD τ).loc main_arg2) : S1x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg2 : S1x128.Idx → EReal) (((cfg0.win 2).blk t).view.emb y) = _
  rw [V_main_arg2]
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block at a point, at its literal type. -/
abbrev blk3 (c : Dev nD) (t : Fin cfg0.N) : S384x128.Idx → EReal := iblk m c 3 t
/-- Window 3 is the whole argument array at every point. -/
theorem blk3_eq (c : Dev nD) (t : Fin cfg0.N) : blk3 m c t = (m ((c : Thread nD τ).loc main_arg3) : S384x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg3 : S384x128.Idx → EReal) (((cfg0.win 3).blk t).view.emb y) = _
  rw [V_main_arg3]
  refine congrArg _ (funext fun a => Fin.ext ?_)
  match a with
  | ⟨0, _⟩ => show win0_3.index t (0 : Fin 2) * 384 + 1 * (y 0).val = (y 0).val; omega
  | ⟨1, _⟩ => show win0_3.index t (1 : Fin 2) * 128 + 1 * (y 1).val = (y 1).val; omega

/-- Window 4's block at a point, at its literal type. -/
abbrev blk4 (c : Dev nD) (t : Fin cfg0.N) : S1x128.Idx → EReal := iblk m c 4 t
/-- Window 4 is the whole argument array at every point. -/
theorem blk4_eq (c : Dev nD) (t : Fin cfg0.N) : blk4 m c t = (m ((c : Thread nD τ).loc main_arg4) : S1x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg4 : S1x128.Idx → EReal) (((cfg0.win 4).blk t).view.emb y) = _
  rw [V_main_arg4]
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block at a point, at its literal type. -/
abbrev blk5 (c : Dev nD) (t : Fin cfg0.N) : S4096x256.Idx → EReal := iblk m c 5 t
/-- Window 5 is the whole argument array at every point. -/
theorem blk5_eq (c : Dev nD) (t : Fin cfg0.N) : blk5 m c t = (m ((c : Thread nD τ).loc main_arg5) : S4096x256.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg5 : S4096x256.Idx → EReal) (((cfg0.win 5).blk t).view.emb y) = _
  rw [V_main_arg5]
  refine congrArg _ (funext fun a => Fin.ext ?_)
  match a with
  | ⟨0, _⟩ => show win0_5.index t (0 : Fin 2) * 4096 + 1 * (y 0).val = (y 0).val; omega
  | ⟨1, _⟩ => show win0_5.index t (1 : Fin 2) * 256 + 1 * (y 1).val = (y 1).val; omega

/-- Window 6's block at a point, at its literal type. -/
abbrev blk6 (c : Dev nD) (t : Fin cfg0.N) : S1x256.Idx → EReal := iblk m c 6 t
/-- Window 6 is the whole argument array at every point. -/
theorem blk6_eq (c : Dev nD) (t : Fin cfg0.N) : blk6 m c t = (m ((c : Thread nD τ).loc main_arg6) : S1x256.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg6 : S1x256.Idx → EReal) (((cfg0.win 6).blk t).view.emb y) = _
  rw [V_main_arg6]
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- Window 7's block at a point, at its literal type. -/
abbrev blk7 (c : Dev nD) (t : Fin cfg0.N) : S256x128.Idx → EReal := iblk m c 7 t
/-- Window 7 is the whole argument array at every point. -/
theorem blk7_eq (c : Dev nD) (t : Fin cfg0.N) : blk7 m c t = (m ((c : Thread nD τ).loc main_arg7) : S256x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg7 : S256x128.Idx → EReal) (((cfg0.win 7).blk t).view.emb y) = _
  rw [V_main_arg7]
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 128 + 1 * (y 1).val = (y 1).val; omega

/-- Window 8's block at a point, at its literal type. -/
abbrev blk8 (c : Dev nD) (t : Fin cfg0.N) : S1x128.Idx → EReal := iblk m c 8 t
/-- Window 8 is the whole argument array at every point. -/
theorem blk8_eq (c : Dev nD) (t : Fin cfg0.N) : blk8 m c t = (m ((c : Thread nD τ).loc main_arg8) : S1x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg8 : S1x128.Idx → EReal) (((cfg0.win 8).blk t).view.emb y) = _
  rw [V_main_arg8]
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block at a point, at its literal type. -/
abbrev blk9 (c : Dev nD) (t : Fin cfg0.N) : S128x128.Idx → EReal := iblk m c 9 t
/-- Window 9 is the whole argument array at every point. -/
theorem blk9_eq (c : Dev nD) (t : Fin cfg0.N) : blk9 m c t = (m ((c : Thread nD τ).loc main_arg9) : S128x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg9 : S128x128.Idx → EReal) (((cfg0.win 9).blk t).view.emb y) = _
  rw [V_main_arg9]
  refine congrArg _ (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10's block at a point, at its literal type. -/
abbrev blk10 (c : Dev nD) (t : Fin cfg0.N) : S1x128.Idx → EReal := iblk m c 10 t
/-- Window 10 is the whole argument array at every point. -/
theorem blk10_eq (c : Dev nD) (t : Fin cfg0.N) : blk10 m c t = (m ((c : Thread nD τ).loc main_arg10) : S1x128.Idx → EReal) := by
  obtain ⟨h0a, h0b, h0c, h1a, h1b, h2a, h2b, h3a, h3b, h4a, h4b, h5a, h5b, h6a, h6b, h7a, h7b, h8a, h8b, h9a, h9b, h10a, h10b, h11a, h11b⟩ := idx_facts t
  funext y
  show (V m c main_arg10 : S1x128.Idx → EReal) (((cfg0.win 10).blk t).view.emb y) = _
  rw [V_main_arg10]
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## The output window: which indices a point's block holds, and that the blocks cover the array -/

/-- An index of the output array is in point `t`'s block iff each coordinate is in the block's range on its axis. -/
theorem mem_blk11 (t : Fin cfg0.N) (i : S4096x128.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v1).slice (win0_11.rect t)).set ↔ _
  rw [View.set_slice_whole, Rect.mem_set_unit]
  exact Iff.rfl

/-- Every index of the output array is in some point's block: row `B` is in the block of the point whose block index
    is `B / 128`. -/
theorem cover11 (i : S4096x128.Idx) : ∃ t : Fin cfg0.N, (cfg0.win 11).flush t = true ∧ i ∈ ((cfg0.win 11).blk t).view.set := by
  have hi0 : (i 0).val < 4096 := (i 0).isLt
  have hi1 : (i 1).val < 128 := (i 1).isLt
  obtain ⟨t, ht⟩ := idx_onto ⟨(i 0).val / 128, by omega⟩
  have q0 : win0_11.index t (0 : Fin 2) = (i 0).val / 128 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 128 ≤ (i 1).val ∧ (i 1).val < win0_11.index t (1 : Fin 2) * 128 + 128; omega

end Cert.ReferenceIdeal.Read

end
-- ==== Proof.RLayers.lean ====
/-
  The reference body's arithmetic cut into its layers, each a function of the values it reads.

  Here an activation is a tensor (sample, position, channel) of a tile of 128 samples; a convolution pads the position
  axis with a zero row at each end, concatenates the three shifted copies on the channel axis (im2col), merges sample and
  position into rows (row `b * 32 + l`) and multiplies by the weights. The flatten concatenates the 32 position slices on
  the channel axis (column `l * 128 + c`). The two equations at the end say that the payload terms the frame is stated
  over are these layers composed.
-/
import proofs.«174414_g2000105302243619_pallasbulk_1256_24_alg».proof.Proof.Gen.ReferenceIdeal.Skeleton

set_option synthInstance.maxSize 4096

noncomputable section

namespace Cert.ReferenceIdeal.Layers

open Idealize.ShloMosaic Idealize.SL.Sem Cert.ReferenceIdeal Cert.ReferenceIdeal.Gen

variable {F : FTy → Type} [FloatOps F]

/-- First convolution with bias and ReLU: from the input tile (sample, position, channel), the weights
    (tap·channel, output channel) and the bias row, the activation (sample, position, output channel). -/
def conv0 (v0 : Vec F S128x32x64 .f32) (v9 : Vec F S192x128 .f32) (v11 : Vec F S1x128 .f32) : FVec F S128x32x128 .f32 :=
  have v1 : FVec F S128x32x64 .f32 := shapeCast S128x32x64 v0 shapeCasts_S128x32x64_S128x32x64
  have cst : F .f32 := Scalar.ofBits .f32 0x00000000#32
  have v2 : FVec F S128x1x64 .f32 := broadcast S128x1x64 cst
  have v3 : FVec F S128x34x64 .f32 := concatenate S128x34x64 1 [⟨S128x1x64, v2⟩, ⟨S128x32x64, v1⟩, ⟨S128x1x64, v2⟩] concatenates_S128x1x64_S128x32x64_S128x1x64_S128x34x64_d1
  have v4 : FVec F S128x32x64 .f32 := extractStridedSlice S128x32x64 ![0, 0, 0] v3 slices_S128x34x64_o0_0_0_S128x32x64
  have v5 : FVec F S128x32x64 .f32 := extractStridedSlice S128x32x64 ![0, 1, 0] v3 slices_S128x34x64_o0_1_0_S128x32x64
  have v6 : FVec F S128x32x64 .f32 := extractStridedSlice S128x32x64 ![0, 2, 0] v3 slices_S128x34x64_o0_2_0_S128x32x64
  have v7 : FVec F S128x32x192 .f32 := concatenate S128x32x192 2 [⟨S128x32x64, v4⟩, ⟨S128x32x64, v5⟩, ⟨S128x32x64, v6⟩] concatenates_S128x32x64_S128x32x64_S128x32x64_S128x32x192_d2
  have v8 : FVec F S4096x192 .f32 := shapeCast S4096x192 v7 shapeCasts_S128x32x192_S4096x192
  have cst_4 : FVec F S4096x128 .f32 := constant S4096x128 .f32 0x00000000#32
  have v10 : FVec F S4096x128 .f32 := matmul dot_S4096x192_S192x128_S4096x128_1_0_0_1_n_n none v8 v9 cst_4
  have v12 : FVec F S4096x128 .f32 := broadcastTo S4096x128 v11 broadcasts_S1x128_S4096x128
  have v13 : FVec F S4096x128 .f32 := addf v10 v12
  have cst_7 : F .f32 := Scalar.ofBits .f32 0x00000000#32
  have v14 : FVec F S4096x128 .f32 := broadcast S4096x128 cst_7
  have v15 : FVec F S4096x128 .f32 := maximumf v13 v14
  have v16 : FVec F S128x32x128 .f32 := shapeCast S128x32x128 v15 shapeCasts_S4096x128_S128x32x128
  v16

/-- Second convolution with bias and ReLU, on the activation (sample, position, channel). -/
def conv1 (v16 : FVec F S128x32x128 .f32) (v24 : Vec F S384x128 .f32) (v26 : Vec F S1x128 .f32) : FVec F S128x32x128 .f32 :=
  have cst_8 : F .f32 := Scalar.ofBits .f32 0x00000000#32
  have v17 : FVec F S128x1x128 .f32 := broadcast S128x1x128 cst_8
  have v18 : FVec F S128x34x128 .f32 := concatenate S128x34x128 1 [⟨S128x1x128, v17⟩, ⟨S128x32x128, v16⟩, ⟨S128x1x128, v17⟩] concatenates_S128x1x128_S128x32x128_S128x1x128_S128x34x128_d1
  have v19 : FVec F S128x32x128 .f32 := extractStridedSlice S128x32x128 ![0, 0, 0] v18 slices_S128x34x128_o0_0_0_S128x32x128
  have v20 : FVec F S128x32x128 .f32 := extractStridedSlice S128x32x128 ![0, 1, 0] v18 slices_S128x34x128_o0_1_0_S128x32x128
  have v21 : FVec F S128x32x128 .f32 := extractStridedSlice S128x32x128 ![0, 2, 0] v18 slices_S128x34x128_o0_2_0_S128x32x128
  have v22 : FVec F S128x32x384 .f32 := concatenate S128x32x384 2 [⟨S128x32x128, v19⟩, ⟨S128x32x128, v20⟩, ⟨S128x32x128, v21⟩] concatenates_S128x32x128_S128x32x128_S128x32x128_S128x32x384_d2
  have v23 : FVec F S4096x384 .f32 := shapeCast S4096x384 v22 shapeCasts_S128x32x384_S4096x384
  have cst_11 : FVec F S4096x128 .f32 := constant S4096x128 .f32 0x00000000#32
  have v25 : FVec F S4096x128 .f32 := matmul dot_S4096x384_S384x128_S4096x128_1_0_0_1_n_n none v23 v24 cst_11
  have v27 : FVec F S4096x128 .f32 := broadcastTo S4096x128 v26 broadcasts_S1x128_S4096x128
  have v28 : FVec F S4096x128 .f32 := addf v25 v27
  have cst_14 : F .f32 := Scalar.ofBits .f32 0x00000000#32
  have v29 : FVec F S4096x128 .f32 := broadcast S4096x128 cst_14
  have v30 : FVec F S4096x128 .f32 := maximumf v28 v29
  have v31 : FVec F S128x32x128 .f32 := shapeCast S128x32x128 v30 shapeCasts_S4096x128_S128x32x128
  v31

/-- The flatten: the 32 position slices of the activation concatenated on the channel axis, then the unit position
    axis dropped: (sample, position·channel). -/
def flat (v31 : FVec F S128x32x128 .f32) : FVec F S128x4096 .f32 :=
  have v64 : FVec F S128x1x4096 .f32 := concatenate S128x1x4096 2
    [⟨S128x1x128, extractStridedSlice S128x1x128 ![0, 0, 0] v31 slices_S128x32x128_o0_0_0_S128x1x128⟩,
      ⟨S128x1x128, extractStridedSlice S128x1x128 ![0, 1, 0] v31 slices_S128x32x128_o0_1_0_S128x1x128⟩,
      ⟨S128x1x128, extractStridedSlice S128x1x128 ![0, 2, 0] v31 slices_S128x32x128_o0_2_0_S128x1x128⟩,
      ⟨S128x1x128, extractStridedSlice S128x1x128 ![0, 3, 0] v31 slices_S128x32x128_o0_3_0_S128x1x128⟩,
      ⟨S128x1x128, extractStridedSlice S128x1x128 ![0, 4, 0] v31 slices_S128x32x128_o0_4_0_S128x1x128⟩,
      ⟨S128x1x128, extractStridedSlice S128x1x128 ![0, 5, 0] v31 slices_S128x32x128_o0_5_0_S128x1x128⟩,
      ⟨S128x1x128, extractStridedSlice S128x1x128 ![0, 6, 0] v31 slices_S128x32x128_o0_6_0_S128x1x128⟩,
      ⟨S128x1x128, extractStridedSlice S128x1x128 ![0, 7, 0] v31 slices_S128x32x128_o0_7_0_S128x1x128⟩,
      ⟨S128x1x128, extractStridedSlice S128x1x128 ![0, 8, 0] v31 slices_S128x32x128_o0_8_0_S128x1x128⟩,
      ⟨S128x1x128, extractStridedSlice S128x1x128 ![0, 9, 0] v31 slices_S128x32x128_o0_9_0_S128x1x128⟩,
      ⟨S128x1x128, extractStridedSlice S128x1x128 ![0, 10, 0] v31 slices_S128x32x128_o0_10_0_S128x1x128⟩,
      ⟨S128x1x128, extractStridedSlice S128x1x128 ![0, 11, 0] v31 slices_S128x32x128_o0_11_0_S128x1x128⟩,
      ⟨S128x1x128, extractStridedSlice S128x1x128 ![0, 12, 0] v31 slices_S128x32x128_o0_12_0_S128x1x128⟩,
      ⟨S128x1x128, extractStridedSlice S128x1x128 ![0, 13, 0] v31 slices_S128x32x128_o0_13_0_S128x1x128⟩,
      ⟨S128x1x128, extractStridedSlice S128x1x128 ![0, 14, 0] v31 slices_S128x32x128_o0_14_0_S128x1x128⟩,
      ⟨S128x1x128, extractStridedSlice S128x1x128 ![0, 15, 0] v31 slices_S128x32x128_o0_15_0_S128x1x128⟩,
      ⟨S128x1x128, extractStridedSlice S128x1x128 ![0, 16, 0] v31 slices_S128x32x128_o0_16_0_S128x1x128⟩,
      ⟨S128x1x128, extractStridedSlice S128x1x128 ![0, 17, 0] v31 slices_S128x32x128_o0_17_0_S128x1x128⟩,
      ⟨S128x1x128, extractStridedSlice S128x1x128 ![0, 18, 0] v31 slices_S128x32x128_o0_18_0_S128x1x128⟩,
      ⟨S128x1x128, extractStridedSlice S128x1x128 ![0, 19, 0] v31 slices_S128x32x128_o0_19_0_S128x1x128⟩,
      ⟨S128x1x128, extractStridedSlice S128x1x128 ![0, 20, 0] v31 slices_S128x32x128_o0_20_0_S128x1x128⟩,
      ⟨S128x1x128, extractStridedSlice S128x1x128 ![0, 21, 0] v31 slices_S128x32x128_o0_21_0_S128x1x128⟩,
      ⟨S128x1x128, extractStridedSlice S128x1x128 ![0, 22, 0] v31 slices_S128x32x128_o0_22_0_S128x1x128⟩,
      ⟨S128x1x128, extractStridedSlice S128x1x128 ![0, 23, 0] v31 slices_S128x32x128_o0_23_0_S128x1x128⟩,
      ⟨S128x1x128, extractStridedSlice S128x1x128 ![0, 24, 0] v31 slices_S128x32x128_o0_24_0_S128x1x128⟩,
      ⟨S128x1x128, extractStridedSlice S128x1x128 ![0, 25, 0] v31 slices_S128x32x128_o0_25_0_S128x1x128⟩,
      ⟨S128x1x128, extractStridedSlice S128x1x128 ![0, 26, 0] v31 slices_S128x32x128_o0_26_0_S128x1x128⟩,
      ⟨S128x1x128, extractStridedSlice S128x1x128 ![0, 27, 0] v31 slices_S128x32x128_o0_27_0_S128x1x128⟩,
      ⟨S128x1x128, extractStridedSlice S128x1x128 ![0, 28, 0] v31 slices_S128x32x128_o0_28_0_S128x1x128⟩,
      ⟨S128x1x128, extractStridedSlice S128x1x128 ![0, 29, 0] v31 slices_S128x32x128_o0_29_0_S128x1x128⟩,
      ⟨S128x1x128, extractStridedSlice S128x1x128 ![0, 30, 0] v31 slices_S128x32x128_o0_30_0_S128x1x128⟩,
      ⟨S128x1x128, extractStridedSlice S128x1x128 ![0, 31, 0] v31 slices_S128x32x128_o0_31_0_S128x1x128⟩]
    concatenates_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x128_S128x1x4096_d2
  have v65 : FVec F S128x4096 .f32 := shapeCast S128x4096 v64 shapeCasts_S128x1x4096_S128x4096
  v65

/-- First dense layer with bias and ReLU. -/
def dense0 (v65 : FVec F S128x4096 .f32) (v66 : Vec F S4096x256 .f32) (v68 : Vec F S1x256 .f32) : FVec F S128x256 .f32 :=
  have cst_17 : FVec F S128x256 .f32 := constant S128x256 .f32 0x00000000#32
  have v67 : FVec F S128x256 .f32 := matmul dot_S128x4096_S4096x256_S128x256_1_0_0_1_n_n none v65 v66 cst_17
  have v69 : FVec F S128x256 .f32 := broadcastTo S128x256 v68 broadcasts_S1x256_S128x256
  have v70 : FVec F S128x256 .f32 := addf v67 v69
  have cst_20 : F .f32 := Scalar.ofBits .f32 0x00000000#32
  have v71 : FVec F S128x256 .f32 := broadcast S128x256 cst_20
  have v72 : FVec F S128x256 .f32 := maximumf v70 v71
  v72

/-- Second dense layer with bias and ReLU. -/
def dense1 (v72 : FVec F S128x256 .f32) (v73 : Vec F S256x128 .f32) (v75 : Vec F S1x128 .f32) : FVec F S128x128 .f32 :=
  have cst_23 : FVec F S128x128 .f32 := constant S128x128 .f32 0x00000000#32
  have v74 : FVec F S128x128 .f32 := matmul dot_S128x256_S256x128_S128x128_1_0_0_1_n_n none v72 v73 cst_23
  have v76 : FVec F S128x128 .f32 := broadcastTo S128x128 v75 broadcasts_S1x128_S128x128
  have v77 : FVec F S128x128 .f32 := addf v74 v76
  have cst_26 : F .f32 := Scalar.ofBits .f32 0x00000000#32
  have v78 : FVec F S128x128 .f32 := broadcast S128x128 cst_26
  have v79 : FVec F S128x128 .f32 := maximumf v77 v78
  v79

/-- The output layer: a product and a bias row. -/
def outp (v79 : FVec F S128x128 .f32) (v80 : Vec F S128x128 .f32) (v82 : Vec F S1x128 .f32) : FVec F S128x128 .f32 :=
  have cst_29 : FVec F S128x128 .f32 := constant S128x128 .f32 0x00000000#32
  have v81 : FVec F S128x128 .f32 := matmul dot_S128x128_S128x128_S128x128_1_0_0_1_n_n none v79 v80 cst_29
  have v83 : FVec F S128x128 .f32 := broadcastTo S128x128 v82 broadcasts_S1x128_S128x128
  have v84 : FVec F S128x128 .f32 := addf v81 v83
  v84

/-- The payload of both convolutions is the second convolution of the first. -/
theorem pay1_eq (v0 : Vec F S128x32x64 .f32) (v9 : Vec F S192x128 .f32) (v11 : Vec F S1x128 .f32)
    (v24 : Vec F S384x128 .f32) (v26 : Vec F S1x128 .f32) :
    k0_pay1 v0 v9 v11 v24 v26 = conv1 (conv0 v0 v9 v11) v24 v26 := rfl

/-- The payload of the flatten, the dense layers and the output layer, given the convolutions' activation and its
    first ten position slices, is the layers composed. -/
theorem pay12_eq (v31 : FVec F S128x32x128 .f32) (v66 : Vec F S4096x256 .f32) (v68 : Vec F S1x256 .f32)
    (v73 : Vec F S256x128 .f32) (v75 : Vec F S1x128 .f32) (v80 : Vec F S128x128 .f32) (v82 : Vec F S1x128 .f32) :
    k0_pay12 v31 (extractStridedSlice S128x1x128 ![0, 0, 0] v31 slices_S128x32x128_o0_0_0_S128x1x128) (extractStridedSlice S128x1x128 ![0, 1, 0] v31 slices_S128x32x128_o0_1_0_S128x1x128) (extractStridedSlice S128x1x128 ![0, 2, 0] v31 slices_S128x32x128_o0_2_0_S128x1x128) (extractStridedSlice S128x1x128 ![0, 3, 0] v31 slices_S128x32x128_o0_3_0_S128x1x128) (extractStridedSlice S128x1x128 ![0, 4, 0] v31 slices_S128x32x128_o0_4_0_S128x1x128) (extractStridedSlice S128x1x128 ![0, 5, 0] v31 slices_S128x32x128_o0_5_0_S128x1x128) (extractStridedSlice S128x1x128 ![0, 6, 0] v31 slices_S128x32x128_o0_6_0_S128x1x128) (extractStridedSlice S128x1x128 ![0, 7, 0] v31 slices_S128x32x128_o0_7_0_S128x1x128) (extractStridedSlice S128x1x128 ![0, 8, 0] v31 slices_S128x32x128_o0_8_0_S128x1x128) (extractStridedSlice S128x1x128 ![0, 9, 0] v31 slices_S128x32x128_o0_9_0_S128x1x128) v66 v68 v73 v75 v80 v82
      = outp (dense1 (dense0 (flat v31) v66 v68) v73 v75) v80 v82 := rfl

end Cert.ReferenceIdeal.Layers

end
-- ==== Proof.RConv0.lean ====
/-
  The reference's first convolution read at an entry: sample `b` of the tile, position `l`, output channel `o`.
-/
import proofs.«174414_g2000105302243619_pallasbulk_1256_24_alg».proof.Proof.RLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.ReferenceIdeal.Layers

open Idealize.ShloMosaic Idealize.ShloMosaic.ValueIdx Cert.ReferenceIdeal Cert.ReferenceIdeal.Gen

/-- The input tile with one zero position before the first position and one after the last. -/
private def padded (v0 : Vec Ideal S128x32x64 .f32) : FVec Ideal S128x34x64 .f32 :=
  concatenate S128x34x64 1
    [⟨S128x1x64, broadcast S128x1x64 (FloatOps.ofBits FTy.f32 0x00000000#32)⟩,
      ⟨S128x32x64, shapeCast S128x32x64 v0 shapeCasts_S128x32x64_S128x32x64⟩,
      ⟨S128x1x64, broadcast S128x1x64 (FloatOps.ofBits FTy.f32 0x00000000#32)⟩]
    concatenates_S128x1x64_S128x32x64_S128x1x64_S128x34x64_d1

/-- Position 0 of the padded tile is the zero position. -/
private theorem padded_first (v0 : Vec Ideal S128x32x64 .f32) (b : Fin 128) (q : Fin 34) (c : Fin 64)
    (hq : q.val = 0) : padded v0 (ix3 b q c) = 0 := by
  unfold padded
  rw [concatenate_apply_piece (1 : Fin 3) _ _ (ix3 b q c) 0 (by simp) S128x1x64 _ rfl rfl 0 rfl
    (ix3 b (0 : Fin 1) c)
    (fun a ha => by
      match a with
      | ⟨0, _⟩ => rfl
      | ⟨1, _⟩ => exact absurd rfl ha
      | ⟨2, _⟩ => rfl)
    (by show 0 + 0 = q.val; omega)]
  rw [broadcast_apply]
  exact Ideal.ofBits_zero_f32

/-- Position 33 of the padded tile is the zero position. -/
private theorem padded_last (v0 : Vec Ideal S128x32x64 .f32) (b : Fin 128) (q : Fin 34) (c : Fin 64)
    (hq : q.val = 33) : padded v0 (ix3 b q c) = 0 := by
  unfold padded
  rw [concatenate_apply_piece (1 : Fin 3) _ _ (ix3 b q c) 2 (by simp) S128x1x64 _ rfl rfl 33 rfl
    (ix3 b (0 : Fin 1) c)
    (fun a ha => by
      match a with
      | ⟨0, _⟩ => rfl
      | ⟨1, _⟩ => exact absurd rfl ha
      | ⟨2, _⟩ => rfl)
    (by show 33 + 0 = q.val; omega)]
  rw [broadcast_apply]
  exact Ideal.ofBits_zero_f32

/-- Positions 1 … 32 of the padded tile are the input's positions 0 … 31. -/
private theorem padded_mid (v0 : Vec Ideal S128x32x64 .f32) (b : Fin 128) (q : Fin 34) (c : Fin 64)
    (l : Fin 32) (hq : q.val = l.val + 1) : padded v0 (ix3 b q c) = v0 (ix3 b l c) := by
  unfold padded
  rw [concatenate_apply_piece (1 : Fin 3) _ _ (ix3 b q c) 1 (by simp) S128x32x64 _ rfl rfl 1 rfl
    (ix3 b l c)
    (fun a ha => by
      match a with
      | ⟨0, _⟩ => rfl
      | ⟨1, _⟩ => exact absurd rfl ha
      | ⟨2, _⟩ => rfl)
    (by show 1 + l.val = q.val; omega)]
  rw [shapeCast_self]

/-- The padded tile read at (b, q, c) is the padded row `q` of sample `b`'s signal. -/
private theorem padded_apply (v0 : Vec Ideal S128x32x64 .f32) (b : Fin 128) (q : Fin 34) (c : Fin 64) :
    padded v0 (ix3 b q c) = Net.padRow (fun l' c' => v0 (ix3 b l' c')) q.val c := by
  unfold Net.padRow
  by_cases hp : 1 ≤ q.val ∧ q.val ≤ 32
  · rw [dif_pos hp]
    exact padded_mid v0 b q c ⟨q.val - 1, by omega⟩ (by show q.val = q.val - 1 + 1; omega)
  · rw [dif_neg hp]
    by_cases h0 : q.val = 0
    · exact padded_first v0 b q c h0
    · exact padded_last v0 b q c (by have := q.isLt; omega)

/-- The im2col tensor: the padded tile's position windows `l`, `l + 1`, `l + 2` side by side on the channel axis. -/
private def im2col (v0 : Vec Ideal S128x32x64 .f32) : FVec Ideal S128x32x192 .f32 :=
  concatenate S128x32x192 2
    [⟨S128x32x64, extractStridedSlice S128x32x64 ![0, 0, 0] (padded v0) slices_S128x34x64_o0_0_0_S128x32x64⟩,
      ⟨S128x32x64, extractStridedSlice S128x32x64 ![0, 1, 0] (padded v0) slices_S128x34x64_o0_1_0_S128x32x64⟩,
      ⟨S128x32x64, extractStridedSlice S128x32x64 ![0, 2, 0] (padded v0) slices_S128x34x64_o0_2_0_S128x32x64⟩]
    concatenates_S128x32x64_S128x32x64_S128x32x64_S128x32x192_d2

/-- Columns 0 … 63 of the im2col tensor are the padded tile at position `l`. -/
private theorem im2col_tap0 (v0 : Vec Ideal S128x32x64 .f32) (b : Fin 128) (l : Fin 32) (j : Fin 192) (c : Fin 64)
    (q : Fin 34) (hc : j.val = c.val) (hq : q.val = l.val) : im2col v0 (ix3 b l j) = padded v0 (ix3 b q c) := by
  unfold im2col
  rw [concatenate_apply_piece (2 : Fin 3) _ _ (ix3 b l j) 0 (by simp) S128x32x64 _ rfl rfl 0 rfl
    (ix3 b l c)
    (fun a ha => by
      match a with
      | ⟨0, _⟩ => rfl
      | ⟨1, _⟩ => rfl
      | ⟨2, _⟩ => exact absurd rfl ha)
    (by show 0 + c.val = j.val; omega)]
  exact extractStridedSlice_apply _ _ _ (ix3 b l c) (ix3 b q c) (fun a => by
    match a with
    | ⟨0, _⟩ => show b.val = 0 + b.val; omega
    | ⟨1, _⟩ => show q.val = 0 + l.val; omega
    | ⟨2, _⟩ => show c.val = 0 + c.val; omega)

/-- Columns 64 … 127 of the im2col tensor are the padded tile at position `l + 1`. -/
private theorem im2col_tap1 (v0 : Vec Ideal S128x32x64 .f32) (b : Fin 128) (l : Fin 32) (j : Fin 192) (c : Fin 64)
    (q : Fin 34) (hc : j.val = 64 + c.val) (hq : q.val = l.val + 1) :
    im2col v0 (ix3 b l j) = padded v0 (ix3 b q c) := by
  unfold im2col
  rw [concatenate_apply_piece (2 : Fin 3) _ _ (ix3 b l j) 1 (by simp) S128x32x64 _ rfl rfl 64 rfl
    (ix3 b l c)
    (fun a ha => by
      match a with
      | ⟨0, _⟩ => rfl
      | ⟨1, _⟩ => rfl
      | ⟨2, _⟩ => exact absurd rfl ha)
    (by show 64 + c.val = j.val; omega)]
  exact extractStridedSlice_apply _ _ _ (ix3 b l c) (ix3 b q c) (fun a => by
    match a with
    | ⟨0, _⟩ => show b.val = 0 + b.val; omega
    | ⟨1, _⟩ => show q.val = 1 + l.val; omega
    | ⟨2, _⟩ => show c.val = 0 + c.val; omega)

/-- Columns 128 … 191 of the im2col tensor are the padded tile at position `l + 2`. -/
private theorem im2col_tap2 (v0 : Vec Ideal S128x32x64 .f32) (b : Fin 128) (l : Fin 32) (j : Fin 192) (c : Fin 64)
    (q : Fin 34) (hc : j.val = 128 + c.val) (hq : q.val = l.val + 2) :
    im2col v0 (ix3 b l j) = padded v0 (ix3 b q c) := by
  unfold im2col
  rw [concatenate_apply_piece (2 : Fin 3) _ _ (ix3 b l j) 2 (by simp) S128x32x64 _ rfl rfl 128 rfl
    (ix3 b l c)
    (fun a ha => by
      match a with
      | ⟨0, _⟩ => rfl
      | ⟨1, _⟩ => rfl
      | ⟨2, _⟩ => exact absurd rfl ha)
    (by show 128 + c.val = j.val; omega)]
  exact extractStridedSlice_apply _ _ _ (ix3 b l c) (ix3 b q c) (fun a => by
    match a with
    | ⟨0, _⟩ => show b.val = 0 + b.val; omega
    | ⟨1, _⟩ => show q.val = 2 + l.val; omega
    | ⟨2, _⟩ => show c.val = 0 + c.val; omega)

/-- The im2col tensor at (b, l, j) is tap `j / 64`, channel `j % 64` of sample `b`'s padded signal at position `l`. -/
private theorem im2col_apply (v0 : Vec Ideal S128x32x64 .f32) (b : Fin 128) (l : Fin 32) (j : Fin 192) :
    im2col v0 (ix3 b l j) = Net.tap (C := 64) (by decide) (fun l' c => v0 (ix3 b l' c)) l j.val := by
  unfold Net.tap
  have hj := j.isLt
  have hl := l.isLt
  rw [← padded_apply v0 b ⟨l.val + j.val / 64, by omega⟩ ⟨j.val % 64, Nat.mod_lt _ (by decide)⟩]
  by_cases h0 : j.val < 64
  · exact im2col_tap0 v0 b l j _ _ (by show j.val = j.val % 64; omega) (by show l.val + j.val / 64 = l.val; omega)
  · by_cases h1 : j.val < 128
    · exact im2col_tap1 v0 b l j _ _ (by show j.val = 64 + j.val % 64; omega)
        (by show l.val + j.val / 64 = l.val + 1; omega)
    · exact im2col_tap2 v0 b l j _ _ (by show j.val = 128 + j.val % 64; omega)
        (by show l.val + j.val / 64 = l.val + 2; omega)

/-- Entry (b, l, o) of the first convolution's activation is the network's convolution of sample `b`'s signal
    (position, channel) at position `l`, channel `o`. -/
theorem conv0_apply (v0 : Vec Ideal S128x32x64 .f32) (v9 : Vec Ideal S192x128 .f32) (v11 : Vec Ideal S1x128 .f32)
    (b : Fin 128) (l : Fin 32) (o : Fin 128) :
    conv0 (F := Ideal) v0 v9 v11 (ix3 b l o)
      = Net.conv (C := 64) (by decide) (fun l' c => v0 (ix3 b l' c)) (fun j o' => v9 (ix2 j o'))
          (fun o' => v11 (ix2 0 o')) l o := by
  have hb := b.isLt
  have hl := l.isLt
  show shapeCast S128x32x128
      (maximumf
        (addf
          (matmul dot_S4096x192_S192x128_S4096x128_1_0_0_1_n_n none
            (shapeCast S4096x192 (im2col v0) shapeCasts_S128x32x192_S4096x192) v9
            (constant S4096x128 FTy.f32 0x00000000#32))
          (broadcastTo S4096x128 v11 broadcasts_S1x128_S4096x128))
        (broadcast S4096x128 (FloatOps.ofBits FTy.f32 0x00000000#32)))
      shapeCasts_S4096x128_S128x32x128 (ix3 b l o) = _
  rw [shapeCast_apply _ shapeCasts_S4096x128_S128x32x128 (ix3 b l o)
    (ix2 (⟨b.val * 32 + l.val, by omega⟩ : Fin 4096) o) (by
      rw [Shape.rowMajor_val_two, Shape.rowMajor_val_three]
      show (b.val * 32 + l.val) * 128 + o.val = (b.val * 32 + l.val) * 128 + o.val
      rfl)]
  rw [maximumf_apply, addf_apply, broadcast_apply]
  rw [LibDot.matmul_10_zero_apply _ rfl rfl rfl rfl rfl rfl]
  rw [broadcastTo_apply v11 broadcasts_S1x128_S4096x128 (ix2 (⟨b.val * 32 + l.val, by omega⟩ : Fin 4096) o)
    (ix2 0 o) (fun a => by
      match a with
      | ⟨0, _⟩ => rfl
      | ⟨1, _⟩ => rfl)]
  show max (_ + _) (Ideal.ofBits .f32 0x00000000#32) = _
  rw [Ideal.ofBits_zero_f32]
  unfold Net.conv
  congr 2
  refine Finset.sum_congr rfl fun j _ => ?_
  rw [shapeCast_apply (im2col v0) shapeCasts_S128x32x192_S4096x192
    (ix2 (⟨b.val * 32 + l.val, by omega⟩ : Fin 4096) j) (ix3 b l j) (by
      rw [Shape.rowMajor_val_two, Shape.rowMajor_val_three]
      show (b.val * 32 + l.val) * 192 + j.val = (b.val * 32 + l.val) * 192 + j.val
      rfl)]
  rw [im2col_apply]

end Cert.ReferenceIdeal.Layers

end
-- ==== Proof.RConv1.lean ====
/-
  The reference's second convolution read at an entry: sample `b` of the tile, position `l`, output channel `o`.
-/
import proofs.«174414_g2000105302243619_pallasbulk_1256_24_alg».proof.Proof.RLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.ReferenceIdeal.Layers

open Idealize.ShloMosaic Idealize.ShloMosaic.ValueIdx Cert.ReferenceIdeal Cert.ReferenceIdeal.Gen

/-- The padded activation (one zero position before position 0 and one after position 31) at sample `b`, padded
    position `q`, channel `c`: positions 1 … 32 read the activation's positions 0 … 31, positions 0 and 33 read the
    padding value. -/
private theorem conv1_padded_apply (y : FVec Ideal S128x32x128 .f32) (z : Ideal .f32) (b : Fin 128) (q : Fin 34)
    (c : Fin 128) :
    concatenate S128x34x128 1 [⟨S128x1x128, broadcast S128x1x128 z⟩, ⟨S128x32x128, y⟩,
        ⟨S128x1x128, broadcast S128x1x128 z⟩] concatenates_S128x1x128_S128x32x128_S128x1x128_S128x34x128_d1 (ix3 b q c)
      = if hq : 1 ≤ q.val ∧ q.val ≤ 32 then y (ix3 b ⟨q.val - 1, by omega⟩ c) else z := by
  by_cases hq : 1 ≤ q.val ∧ q.val ≤ 32
  · rw [dif_pos hq]
    exact concatenate_apply_piece 1 _ _ (ix3 b q c) 1 (by show 1 < 3; omega) S128x32x128 y rfl rfl 1 rfl
      (ix3 b ⟨q.val - 1, by omega⟩ c)
      (fun a => by
        match a with
        | ⟨0, _⟩ => exact fun _ => rfl
        | ⟨1, _⟩ => exact fun h => absurd rfl h
        | ⟨2, _⟩ => exact fun _ => rfl)
      (by show 1 + (q.val - 1) = q.val; omega)
  · rw [dif_neg hq]
    by_cases h0 : q.val = 0
    · exact concatenate_apply_piece 1 _ _ (ix3 b q c) 0 (by show 0 < 3; omega) S128x1x128 (broadcast S128x1x128 z) rfl rfl 0 rfl
        (ix3 b 0 c)
        (fun a => by
          match a with
          | ⟨0, _⟩ => exact fun _ => rfl
          | ⟨1, _⟩ => exact fun h => absurd rfl h
          | ⟨2, _⟩ => exact fun _ => rfl)
        (by show 0 + 0 = q.val; omega)
    · exact concatenate_apply_piece 1 _ _ (ix3 b q c) 2 (by show 2 < 3; omega) S128x1x128 (broadcast S128x1x128 z) rfl rfl 33 rfl
        (ix3 b 0 c)
        (fun a => by
          match a with
          | ⟨0, _⟩ => exact fun _ => rfl
          | ⟨1, _⟩ => exact fun h => absurd rfl h
          | ⟨2, _⟩ => exact fun _ => rfl)
        (by show 33 + 0 = q.val; have := q.isLt; omega)

/-- The im2col tensor (the three position-shifted slices of a padded map `P` laid side by side on the channel axis) at
    sample `b`, position `l`, column `j`: tap `j / 128` is the slice shifted by that many positions, so the entry
    reads `P` at padded position `l + j / 128`, channel `j % 128`. -/
private theorem conv1_im2col_apply (P : FVec Ideal S128x34x128 .f32) (b : Fin 128) (l : Fin 32) (j : Fin 384) :
    concatenate S128x32x384 2
        [⟨S128x32x128, extractStridedSlice S128x32x128 ![0, 0, 0] P slices_S128x34x128_o0_0_0_S128x32x128⟩,
          ⟨S128x32x128, extractStridedSlice S128x32x128 ![0, 1, 0] P slices_S128x34x128_o0_1_0_S128x32x128⟩,
          ⟨S128x32x128, extractStridedSlice S128x32x128 ![0, 2, 0] P slices_S128x34x128_o0_2_0_S128x32x128⟩]
        concatenates_S128x32x128_S128x32x128_S128x32x128_S128x32x384_d2 (ix3 b l j)
      = P (ix3 b ⟨l.val + j.val / 128, by omega⟩ ⟨j.val % 128, by omega⟩) := by
  have hj := j.isLt
  have hl := l.isLt
  by_cases h1 : j.val < 128
  ·
    exact (concatenate_apply_piece 2 _ _ (ix3 b l j) 0 (by show 0 < 3; omega) S128x32x128
        (extractStridedSlice S128x32x128 ![0, 0, 0] P slices_S128x34x128_o0_0_0_S128x32x128) rfl rfl 0 rfl
        (ix3 b l ⟨j.val - 0, by omega⟩)
        (fun a => by
          match a with
          | ⟨0, _⟩ => exact fun _ => rfl
          | ⟨1, _⟩ => exact fun _ => rfl
          | ⟨2, _⟩ => exact fun h => absurd rfl h)
        (by show 0 + (j.val - 0) = j.val; omega)).trans
      (extractStridedSlice_apply _ P _ _ (ix3 b ⟨l.val + j.val / 128, by omega⟩ ⟨j.val % 128, by omega⟩) (fun a => by
        match a with
        | ⟨0, _⟩ => show b.val = 0 + b.val; omega
        | ⟨1, _⟩ => show l.val + j.val / 128 = 0 + l.val; omega
        | ⟨2, _⟩ => show j.val % 128 = 0 + (j.val - 0); omega))
  · by_cases h2 : j.val < 256
    ·
      exact (concatenate_apply_piece 2 _ _ (ix3 b l j) 1 (by show 1 < 3; omega) S128x32x128
          (extractStridedSlice S128x32x128 ![0, 1, 0] P slices_S128x34x128_o0_1_0_S128x32x128) rfl rfl 128 rfl
          (ix3 b l ⟨j.val - 128, by omega⟩)
          (fun a => by
            match a with
            | ⟨0, _⟩ => exact fun _ => rfl
            | ⟨1, _⟩ => exact fun _ => rfl
            | ⟨2, _⟩ => exact fun h => absurd rfl h)
          (by show 128 + (j.val - 128) = j.val; omega)).trans
        (extractStridedSlice_apply _ P _ _ (ix3 b ⟨l.val + j.val / 128, by omega⟩ ⟨j.val % 128, by omega⟩) (fun a => by
          match a with
          | ⟨0, _⟩ => show b.val = 0 + b.val; omega
          | ⟨1, _⟩ => show l.val + j.val / 128 = 1 + l.val; omega
          | ⟨2, _⟩ => show j.val % 128 = 0 + (j.val - 128); omega))
    ·
      exact (concatenate_apply_piece 2 _ _ (ix3 b l j) 2 (by show 2 < 3; omega) S128x32x128
          (extractStridedSlice S128x32x128 ![0, 2, 0] P slices_S128x34x128_o0_2_0_S128x32x128) rfl rfl 256 rfl
          (ix3 b l ⟨j.val - 256, by omega⟩)
          (fun a => by
            match a with
            | ⟨0, _⟩ => exact fun _ => rfl
            | ⟨1, _⟩ => exact fun _ => rfl
            | ⟨2, _⟩ => exact fun h => absurd rfl h)
          (by show 256 + (j.val - 256) = j.val; omega)).trans
        (extractStridedSlice_apply _ P _ _ (ix3 b ⟨l.val + j.val / 128, by omega⟩ ⟨j.val % 128, by omega⟩) (fun a => by
          match a with
          | ⟨0, _⟩ => show b.val = 0 + b.val; omega
          | ⟨1, _⟩ => show l.val + j.val / 128 = 2 + l.val; omega
          | ⟨2, _⟩ => show j.val % 128 = 0 + (j.val - 256); omega))

/-- The im2col tensor of the zero-padded activation at sample `b`, position `l`, column `j` is the network's im2col
    entry of sample `b`'s feature map: padded position `l + j / 128` is position `l + j / 128 - 1` of the map when that
    is one of its 32 positions, and zero on the two padding positions. -/
private theorem conv1_tap_apply (y : FVec Ideal S128x32x128 .f32) (b : Fin 128) (l : Fin 32) (j : Fin 384) :
    concatenate S128x32x384 2
        [⟨S128x32x128, extractStridedSlice S128x32x128 ![0, 0, 0]
            (concatenate S128x34x128 1 [⟨S128x1x128, broadcast S128x1x128 (0 : Ideal .f32)⟩, ⟨S128x32x128, y⟩,
              ⟨S128x1x128, broadcast S128x1x128 (0 : Ideal .f32)⟩]
              concatenates_S128x1x128_S128x32x128_S128x1x128_S128x34x128_d1) slices_S128x34x128_o0_0_0_S128x32x128⟩,
          ⟨S128x32x128, extractStridedSlice S128x32x128 ![0, 1, 0]
            (concatenate S128x34x128 1 [⟨S128x1x128, broadcast S128x1x128 (0 : Ideal .f32)⟩, ⟨S128x32x128, y⟩,
              ⟨S128x1x128, broadcast S128x1x128 (0 : Ideal .f32)⟩]
              concatenates_S128x1x128_S128x32x128_S128x1x128_S128x34x128_d1) slices_S128x34x128_o0_1_0_S128x32x128⟩,
          ⟨S128x32x128, extractStridedSlice S128x32x128 ![0, 2, 0]
            (concatenate S128x34x128 1 [⟨S128x1x128, broadcast S128x1x128 (0 : Ideal .f32)⟩, ⟨S128x32x128, y⟩,
              ⟨S128x1x128, broadcast S128x1x128 (0 : Ideal .f32)⟩]
              concatenates_S128x1x128_S128x32x128_S128x1x128_S128x34x128_d1) slices_S128x34x128_o0_2_0_S128x32x128⟩]
        concatenates_S128x32x128_S128x32x128_S128x32x128_S128x32x384_d2 (ix3 b l j)
      = Net.tap (C := 128) (by decide) (fun l' c => y (ix3 b l' c)) l j.val := by
  rw [conv1_im2col_apply, conv1_padded_apply]
  rfl

/-- Entry (b, l, o) of the second convolution's activation is the network's convolution of sample `b`'s feature map
    (position, channel) at position `l`, channel `o`. -/
theorem conv1_apply (y : FVec Ideal S128x32x128 .f32) (v24 : Vec Ideal S384x128 .f32) (v26 : Vec Ideal S1x128 .f32)
    (b : Fin 128) (l : Fin 32) (o : Fin 128) :
    conv1 (F := Ideal) y v24 v26 (ix3 b l o)
      = Net.conv (C := 128) (by decide) (fun l' c => y (ix3 b l' c)) (fun j o' => v24 (ix2 j o'))
          (fun o' => v26 (ix2 0 o')) l o := by
  have hb := b.isLt
  have hl := l.isLt
  have hz : (FloatOps.ofBits .f32 0x00000000#32 : Ideal .f32) = 0 := Ideal.ofBits_zero_f32
  simp only [conv1]
  -- the padding value and the ReLU's floor are the number zero
  rw [hz]
  -- entry (b, l, o) of the (128, 32, 128) tensor is row b * 32 + l, column o of the (4096, 128) matrix
  rw [shapeCast_apply _ shapeCasts_S4096x128_S128x32x128 (ix3 b l o) (ix2 ⟨b.val * 32 + l.val, by omega⟩ o)
    (by rw [Shape.rowMajor_val_two, Shape.rowMajor_val_three]; rfl)]
  rw [maximumf_apply, addf_apply, broadcast_apply]
  rw [LibDot.matmul_10_zero_apply _ rfl rfl rfl rfl rfl rfl]
  rw [broadcastTo_apply v26 broadcasts_S1x128_S4096x128 (ix2 ⟨b.val * 32 + l.val, by omega⟩ o) (ix2 0 o) (fun a => by
    match a with
    | ⟨0, _⟩ => rfl
    | ⟨1, _⟩ => rfl)]
  show max (_ + _) 0 = max (_ + _) 0
  congr 2
  refine Finset.sum_congr rfl fun j _ => ?_
  -- row b * 32 + l, column j of the (4096, 384) matrix is entry (b, l, j) of the im2col tensor
  congr 1
  rw [shapeCast_apply _ shapeCasts_S128x32x384_S4096x384 (ix2 ⟨b.val * 32 + l.val, by omega⟩ j) (ix3 b l j)
    (by rw [Shape.rowMajor_val_two, Shape.rowMajor_val_three]; rfl)]
  exact conv1_tap_apply y b l j

end Cert.ReferenceIdeal.Layers

end
-- ==== Proof.RFlat.lean ====
/-
  The reference's flatten and first dense layer read at an entry.
-/
import proofs.«174414_g2000105302243619_pallasbulk_1256_24_alg».proof.Proof.RLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.ReferenceIdeal.Layers

open Idealize.ShloMosaic Idealize.ShloMosaic.ValueIdx Cert.ReferenceIdeal Cert.ReferenceIdeal.Gen

/-- One piece of the flatten's concatenation: when column `r` falls in block `k` (`r / 128 = k`), every piece has
    the slice shape (so the pieces before `k` cover `128 * k` columns), and piece `k` of the list is the slice of the
    activation at position `k`, the concatenation at (b, 0, r) reads that slice at (b, 0, r % 128), which is the
    activation at (b, k, r % 128). -/
theorem piece_apply (y : FVec Ideal S128x32x128 .f32) (b : Fin 128) (r : Fin 4096) (k : Nat) (hq : r.val / 128 = k)
    (xs : List ((s : Shape) × (s.Idx → Ideal .f32))) (h : Shape.Concatenates (xs.map (·.1)) S128x1x4096 2)
    (hsh : xs.map (·.1) = List.replicate 32 S128x1x128) (hs : S128x32x128.Slices ![0, k, 0] S128x1x128)
    (hxk : xs[k]'(by have := congrArg List.length hsh; simp at this; omega)
      = ⟨S128x1x128, extractStridedSlice S128x1x128 ![0, k, 0] y hs⟩) :
    concatenate S128x1x4096 2 xs h (ix3 b 0 r)
      = y (ix3 b (⟨r.val / 128, by omega⟩ : Fin 32) (⟨r.val % 128, Nat.mod_lt _ (by decide)⟩ : Fin 128)) := by
  have hlen : xs.length = 32 := by have := congrArg List.length hsh; simpa using this
  have hpre : (((xs.take k).map (·.1)).map fun s =>
      if h : s.rank = S128x1x4096.rank then s.size ((2 : Fin S128x1x4096.rank).cast h.symm) else 0).sum = 128 * k := by
    rw [List.map_take, hsh, List.take_replicate, List.map_replicate, List.sum_replicate, smul_eq_mul]
    show min k 32 * 128 = 128 * k
    omega
  rw [concatenate_apply_piece 2 xs h (ix3 b 0 r) k (by omega) S128x1x128 _ hxk rfl (128 * k) hpre
    (ix3 b 0 (⟨r.val % 128, Nat.mod_lt _ (by decide)⟩ : Fin 128)) (fun a ha => by
      match a, ha with
      | ⟨0, _⟩, _ => rfl
      | ⟨1, _⟩, _ => rfl
      | ⟨2, _⟩, ha => exact absurd rfl ha) (by
      show 128 * k + r.val % 128 = r.val
      omega)]
  exact extractStridedSlice_apply _ y hs _ _ (fun a => by
    match a with
    | ⟨0, _⟩ => show b.val = 0 + b.val; omega
    | ⟨1, _⟩ => show r.val / 128 = k + 0; omega
    | ⟨2, _⟩ => show r.val % 128 = 0 + r.val % 128; omega)

/-- Column `r` of the flattened activation is channel `r % 128` at position `r / 128`. -/
theorem flat_apply (y : FVec Ideal S128x32x128 .f32) (b : Fin 128) (r : Fin 4096) :
    flat (F := Ideal) y (ix2 b r)
      = y (ix3 b (⟨r.val / 128, by omega⟩ : Fin 32) (⟨r.val % 128, Nat.mod_lt _ (by decide)⟩ : Fin 128)) := by
  simp only [flat]
  rw [shapeCast_apply _ shapeCasts_S128x1x4096_S128x4096 (ix2 b r) (ix3 b 0 r) (by
    rw [Shape.rowMajor_val_two, Shape.rowMajor_val_three]
    show (b.val * 1 + 0) * 4096 + r.val = b.val * 4096 + r.val
    omega)]
  obtain ⟨n, hn⟩ : ∃ n : Fin 32, r.val / 128 = n.val := ⟨⟨r.val / 128, by omega⟩, rfl⟩
  match n, hn with
  | ⟨0, _⟩, hn => exact piece_apply y b r 0 hn _ _ rfl _ rfl
  | ⟨1, _⟩, hn => exact piece_apply y b r 1 hn _ _ rfl _ rfl
  | ⟨2, _⟩, hn => exact piece_apply y b r 2 hn _ _ rfl _ rfl
  | ⟨3, _⟩, hn => exact piece_apply y b r 3 hn _ _ rfl _ rfl
  | ⟨4, _⟩, hn => exact piece_apply y b r 4 hn _ _ rfl _ rfl
  | ⟨5, _⟩, hn => exact piece_apply y b r 5 hn _ _ rfl _ rfl
  | ⟨6, _⟩, hn => exact piece_apply y b r 6 hn _ _ rfl _ rfl
  | ⟨7, _⟩, hn => exact piece_apply y b r 7 hn _ _ rfl _ rfl
  | ⟨8, _⟩, hn => exact piece_apply y b r 8 hn _ _ rfl _ rfl
  | ⟨9, _⟩, hn => exact piece_apply y b r 9 hn _ _ rfl _ rfl
  | ⟨10, _⟩, hn => exact piece_apply y b r 10 hn _ _ rfl _ rfl
  | ⟨11, _⟩, hn => exact piece_apply y b r 11 hn _ _ rfl _ rfl
  | ⟨12, _⟩, hn => exact piece_apply y b r 12 hn _ _ rfl _ rfl
  | ⟨13, _⟩, hn => exact piece_apply y b r 13 hn _ _ rfl _ rfl
  | ⟨14, _⟩, hn => exact piece_apply y b r 14 hn _ _ rfl _ rfl
  | ⟨15, _⟩, hn => exact piece_apply y b r 15 hn _ _ rfl _ rfl
  | ⟨16, _⟩, hn => exact piece_apply y b r 16 hn _ _ rfl _ rfl
  | ⟨17, _⟩, hn => exact piece_apply y b r 17 hn _ _ rfl _ rfl
  | ⟨18, _⟩, hn => exact piece_apply y b r 18 hn _ _ rfl _ rfl
  | ⟨19, _⟩, hn => exact piece_apply y b r 19 hn _ _ rfl _ rfl
  | ⟨20, _⟩, hn => exact piece_apply y b r 20 hn _ _ rfl _ rfl
  | ⟨21, _⟩, hn => exact piece_apply y b r 21 hn _ _ rfl _ rfl
  | ⟨22, _⟩, hn => exact piece_apply y b r 22 hn _ _ rfl _ rfl
  | ⟨23, _⟩, hn => exact piece_apply y b r 23 hn _ _ rfl _ rfl
  | ⟨24, _⟩, hn => exact piece_apply y b r 24 hn _ _ rfl _ rfl
  | ⟨25, _⟩, hn => exact piece_apply y b r 25 hn _ _ rfl _ rfl
  | ⟨26, _⟩, hn => exact piece_apply y b r 26 hn _ _ rfl _ rfl
  | ⟨27, _⟩, hn => exact piece_apply y b r 27 hn _ _ rfl _ rfl
  | ⟨28, _⟩, hn => exact piece_apply y b r 28 hn _ _ rfl _ rfl
  | ⟨29, _⟩, hn => exact piece_apply y b r 29 hn _ _ rfl _ rfl
  | ⟨30, _⟩, hn => exact piece_apply y b r 30 hn _ _ rfl _ rfl
  | ⟨31, _⟩, hn => exact piece_apply y b r 31 hn _ _ rfl _ rfl
  | ⟨m + 32, hm⟩, _ => exact absurd hm (by omega)

/-- Entry (b, d) of the first dense layer's activation is the network's dense layer on sample `b`'s row of the
    flattened activation. -/
theorem dense0_apply (z : FVec Ideal S128x4096 .f32) (v66 : Vec Ideal S4096x256 .f32) (v68 : Vec Ideal S1x256 .f32)
    (b : Fin 128) (d : Fin 256) :
    dense0 (F := Ideal) z v66 v68 (ix2 b d)
      = Net.dense (fun r => z (ix2 b r)) (fun r d' => v66 (ix2 r d')) (fun d' => v68 (ix2 0 d')) d := by
  simp only [dense0]
  rw [maximumf_apply, addf_apply, broadcast_apply]
  rw [LibDot.matmul_10_zero_apply _ rfl rfl rfl rfl rfl rfl]
  rw [broadcastTo_apply v68 broadcasts_S1x256_S128x256 (ix2 b d) (ix2 0 d) (fun a => by
    match a with
    | ⟨0, _⟩ => rfl
    | ⟨1, _⟩ => rfl)]
  show max (_ + _) (Ideal.ofBits .f32 0x00000000#32) = max (_ + _) 0
  rw [Ideal.ofBits_zero_f32]

end Cert.ReferenceIdeal.Layers

end
-- ==== Proof.RTail.lean ====
/-
  The reference's second dense layer and output layer read at an entry.
-/
import proofs.«174414_g2000105302243619_pallasbulk_1256_24_alg».proof.Proof.RLayers
import proofs.«174414_g2000105302243619_pallasbulk_1256_24_alg».proof.Proof.Net
import proofs.«174414_g2000105302243619_pallasbulk_1256_24_alg».proof.Proof.LibDot
import Idealize.ShloMosaic.Lib.ValueIdx
import Idealize.ShloMosaic.Lib.Pipeline.Value
import Idealize.ShloMosaic.PureOps.Ideal.Laws

noncomputable section

open scoped BigOperators

namespace Cert.ReferenceIdeal.Layers

open Idealize.ShloMosaic Idealize.ShloMosaic.ValueIdx Cert.ReferenceIdeal Cert.ReferenceIdeal.Gen

/-- Entry (b, e) of the second dense layer's activation is the network's dense layer on sample `b`'s row. -/
theorem dense1_apply (z : FVec Ideal S128x256 .f32) (v73 : Vec Ideal S256x128 .f32) (v75 : Vec Ideal S1x128 .f32)
    (b : Fin 128) (e : Fin 128) :
    dense1 (F := Ideal) z v73 v75 (ix2 b e)
      = Net.dense (fun d => z (ix2 b d)) (fun d e' => v73 (ix2 d e')) (fun e' => v75 (ix2 0 e')) e := by
  simp only [dense1]
  rw [maximumf_apply, addf_apply, broadcast_apply]
  rw [LibDot.matmul_10_zero_apply _ rfl rfl rfl rfl rfl rfl]
  rw [broadcastTo_apply v75 broadcasts_S1x128_S128x128 (ix2 b e) (ix2 0 e) (fun a => by
    match a with
    | ⟨0, _⟩ => rfl
    | ⟨1, _⟩ => rfl)]
  show max (_ + _) (Ideal.ofBits .f32 0x00000000#32) = max (_ + _) 0
  rw [Ideal.ofBits_zero_f32]

/-- Entry (b, n) of the output layer is the network's last layer on sample `b`'s row. -/
theorem outp_apply (z : FVec Ideal S128x128 .f32) (v80 : Vec Ideal S128x128 .f32) (v82 : Vec Ideal S1x128 .f32)
    (b : Fin 128) (n : Fin 128) :
    outp (F := Ideal) z v80 v82 (ix2 b n)
      = Net.affine (fun e => z (ix2 b e)) (fun e n' => v80 (ix2 e n')) (fun n' => v82 (ix2 0 n')) n := by
  simp only [outp]
  rw [addf_apply]
  rw [LibDot.matmul_10_zero_apply _ rfl rfl rfl rfl rfl rfl]
  rw [broadcastTo_apply v82 broadcasts_S1x128_S128x128 (ix2 b n) (ix2 0 n) (fun a => by
    match a with
    | ⟨0, _⟩ => rfl
    | ⟨1, _⟩ => rfl)]
  rfl

end Cert.ReferenceIdeal.Layers

end
-- ==== Proof.RBlock.lean ====
/-
  The reference body's stored block, entry by entry: row `b` of the block is the network applied to sample `b` of the
  tile. The layers compose, and each layer read at an entry is the network's layer on that sample; the flattened column
  `r` reads position `r / 128`, channel `r % 128`, as the network's flatten does.
-/
import proofs.«174414_g2000105302243619_pallasbulk_1256_24_alg».proof.Proof.RConv0
import proofs.«174414_g2000105302243619_pallasbulk_1256_24_alg».proof.Proof.RConv1
import proofs.«174414_g2000105302243619_pallasbulk_1256_24_alg».proof.Proof.RFlat
import proofs.«174414_g2000105302243619_pallasbulk_1256_24_alg».proof.Proof.RTail

noncomputable section

open scoped BigOperators

namespace Cert.ReferenceIdeal.Layers

open Idealize.ShloMosaic Idealize.ShloMosaic.ValueIdx Cert.ReferenceIdeal Cert.ReferenceIdeal.Gen

/-- The payload the body stores, as the layers composed. -/
theorem pay_eq_layers (x0 : Vec Ideal S128x32x64 .f32) (x1 : Vec Ideal S192x128 .f32) (x2 : Vec Ideal S1x128 .f32)
    (x3 : Vec Ideal S384x128 .f32) (x4 : Vec Ideal S1x128 .f32) (x5 : Vec Ideal S4096x256 .f32) (x6 : Vec Ideal S1x256 .f32)
    (x7 : Vec Ideal S256x128 .f32) (x8 : Vec Ideal S1x128 .f32) (x9 : Vec Ideal S128x128 .f32) (x10 : Vec Ideal S1x128 .f32) :
    k0_pay12 (F := Ideal) (k0_pay1 x0 x1 x2 x3 x4) (k0_pay2 x0 x1 x2 x3 x4) (k0_pay3 x0 x1 x2 x3 x4) (k0_pay4 x0 x1 x2 x3 x4) (k0_pay5 x0 x1 x2 x3 x4)
        (k0_pay6 x0 x1 x2 x3 x4) (k0_pay7 x0 x1 x2 x3 x4) (k0_pay8 x0 x1 x2 x3 x4) (k0_pay9 x0 x1 x2 x3 x4) (k0_pay10 x0 x1 x2 x3 x4) (k0_pay11 x0 x1 x2 x3 x4)
        x5 x6 x7 x8 x9 x10
      = outp (dense1 (dense0 (flat (conv1 (conv0 x0 x1 x2) x3 x4)) x5 x6) x7 x8) x9 x10 := rfl

/-- Entry (b, n) of the stored block is output `n` of the network on sample `b` of the tile: the sample's signal is the
    input tile's (b, ·, ·) slice read (channel, position); every weight matrix is read as stored and every bias is a
    row. -/
theorem pay_apply (x0 : Vec Ideal S128x32x64 .f32) (x1 : Vec Ideal S192x128 .f32) (x2 : Vec Ideal S1x128 .f32)
    (x3 : Vec Ideal S384x128 .f32) (x4 : Vec Ideal S1x128 .f32) (x5 : Vec Ideal S4096x256 .f32) (x6 : Vec Ideal S1x256 .f32)
    (x7 : Vec Ideal S256x128 .f32) (x8 : Vec Ideal S1x128 .f32) (x9 : Vec Ideal S128x128 .f32) (x10 : Vec Ideal S1x128 .f32)
    (b : Fin 128) (n : Fin 128) :
    k0_pay12 (F := Ideal) (k0_pay1 x0 x1 x2 x3 x4) (k0_pay2 x0 x1 x2 x3 x4) (k0_pay3 x0 x1 x2 x3 x4) (k0_pay4 x0 x1 x2 x3 x4) (k0_pay5 x0 x1 x2 x3 x4)
        (k0_pay6 x0 x1 x2 x3 x4) (k0_pay7 x0 x1 x2 x3 x4) (k0_pay8 x0 x1 x2 x3 x4) (k0_pay9 x0 x1 x2 x3 x4) (k0_pay10 x0 x1 x2 x3 x4) (k0_pay11 x0 x1 x2 x3 x4)
        x5 x6 x7 x8 x9 x10 (ix2 b n)
      = Net.net (fun c l => x0 (ix3 b l c)) (fun j o => x1 (ix2 j o)) (fun o => x2 (ix2 0 o)) (fun j o => x3 (ix2 j o))
          (fun o => x4 (ix2 0 o)) (fun r d => x5 (ix2 r d)) (fun d => x6 (ix2 0 d)) (fun d e => x7 (ix2 d e))
          (fun e => x8 (ix2 0 e)) (fun e n' => x9 (ix2 e n')) (fun n' => x10 (ix2 0 n')) n := by
  rw [pay_eq_layers, outp_apply]
  simp only [dense1_apply, dense0_apply, flat_apply, conv1_apply, conv0_apply]
  rfl

end Cert.ReferenceIdeal.Layers

end
-- ==== Proof.RValue.lean ====
/-
  What the reference's result array holds after the run: the network applied to every sample.

  At grid point `t` the body stores, at entry (b, n) of the output's block, output `n` of the network on sample `b` of
  the input's block; that sample is row `B = 128 · (block index) + b` of the batch and the weights and biases the region
  reads are the arguments themselves, so the block written back is block `t` of the one function `Net.G` of the
  arguments. The thirty-two blocks cover the array, so it ends holding that function.
-/
import proofs.«174414_g2000105302243619_pallasbulk_1256_24_alg».proof.Proof.RRead
import proofs.«174414_g2000105302243619_pallasbulk_1256_24_alg».proof.Proof.RBlock
import proofs.«174414_g2000105302243619_pallasbulk_1256_24_alg».proof.Proof.NetArr

noncomputable section

namespace Cert.ReferenceIdeal.RegVal

open Cert.ReferenceIdeal Cert.ReferenceIdeal.Gen Cert.ReferenceIdeal.Read Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The network on every sample, of core `c`'s argument arrays. -/
abbrev Gm (c : Dev nD) : S4096x128.Idx → EReal :=
  Net.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` writes back is block `t` of the network's function of the arguments. -/
theorem flushed_eq (c : Dev nD) (t : Fin cfg0.N) :
    (dats m 0 c).flushed 11 t = ((cfg0.win 11).blk t).view.read (Elt Ideal) (Gm m c) := by
  rw [Cert.ReferenceIdeal.Value.flushed11]
  unfold out0_11
  rw [View.canon_unit_zero hz2]
  simp only [View.ld_unit_zero (S := S128x32x64) hz3, View.ld_unit_zero (S := S192x128) hz2, View.ld_unit_zero (S := S1x128) hz2, View.ld_unit_zero (S := S384x128) hz2, View.ld_unit_zero (S := S4096x256) hz2, View.ld_unit_zero (S := S1x256) hz2, View.ld_unit_zero (S := S256x128) hz2, View.ld_unit_zero (S := S128x128) hz2]
  obtain ⟨h0a, h0b, h0c, h1a, h1b, h2a, h2b, h3a, h3b, h4a, h4b, h5a, h5b, h6a, h6b, h7a, h7b, h8a, h8b, h9a, h9b, h10a, h10b, h11a, h11b⟩ := idx_facts t
  funext j
  obtain ⟨b, n, rfl⟩ : ∃ (b : Fin 128) (n : Fin 128), j = ix2 b n := ⟨j 0, j 1, eq_ix2 j⟩
  refine (Cert.ReferenceIdeal.Layers.pay_apply (blk0 m c t) (blk1 m c t) (blk2 m c t) (blk3 m c t) (blk4 m c t) (blk5 m c t)
    (blk6 m c t) (blk7 m c t) (blk8 m c t) (blk9 m c t) (blk10 m c t) b n).trans ?_
  -- the sample's row of the batch
  have hBlt : win0_11.index t (0 : Fin 2) * 128 + b.val < 4096 := by have := b.isLt; omega
  have hemb : ((cfg0.win 11).blk t).view.emb (ix2 b n) = (ix2 (⟨win0_11.index t (0 : Fin 2) * 128 + b.val, hBlt⟩ : Fin 4096) n : S4096x128.Idx) := by
    funext a; apply Fin.ext
    match a with
    | ⟨0, _⟩ => show win0_11.index t (0 : Fin 2) * 128 + 1 * b.val = win0_11.index t (0 : Fin 2) * 128 + b.val; omega
    | ⟨1, _⟩ => show win0_11.index t (1 : Fin 2) * 128 + 1 * n.val = n.val; omega
  show _ = Gm m c (((cfg0.win 11).blk t).view.emb (ix2 b n))
  rw [hemb]
  have e0 : (fun ch l => blk0 m c t (ix3 b l ch))
      = fun ch l => ((m ((c : Thread nD τ).loc main_arg0)) : S4096x64x32.Idx → EReal) (ix3 (⟨win0_11.index t (0 : Fin 2) * 128 + b.val, hBlt⟩ : Fin 4096) ch l) := by
    funext ch l; rw [blk0_apply m c t b l ch (⟨win0_11.index t (0 : Fin 2) * 128 + b.val, hBlt⟩ : Fin 4096) rfl, V_v0_apply]
  rw [e0, blk1_eq, blk2_eq, blk3_eq, blk4_eq, blk5_eq, blk6_eq, blk7_eq, blk8_eq, blk9_eq, blk10_eq]
  rfl

/-- The output array after the run is the network's function of the arguments: the blocks cover it. -/
theorem final (c : Dev nD) : (dats m 0 c).arrAt 11 cfg0.N = Gm m c :=
  (dats m 0 c).arrAt_eq_of_cover 11 (Gm m c) (fun t _ => flushed_eq m c t) cover11

/-- The run re-posted: the result array at the network's function of the arguments, the arguments unchanged. -/
theorem run : θ_run defs (onTc (τ := τ) (main (F := Ideal))) ⟨m, fun _ => 0, ρ⟩ fun r => ∀ c : Dev nD,
      r.2.mem ((c : Thread nD τ).loc main_v1) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.ReferenceIdeal.Value.run_blocks m ρ)

end Cert.ReferenceIdeal.RegVal

end
-- ==== Proof.lean ====
/-
  The optimized kernel and its reference compute the same network, over the extended reals.

  Both programs are one batch-tiled kernel launch: a width-3 "same" convolution with bias and ReLU, twice, a flatten in
  position-major order, two dense layers with bias and ReLU, and an affine output layer. The optimized kernel works on
  tiles of 512 samples in a transposed layout (channels on rows, position·sample on columns), with the input transposed
  to (position, sample, channel), two weight matrices transposed and the hidden biases turned into columns by the host,
  and narrows operands to bf16, which at the ideal values is the identity; the reference works on tiles of 128 samples
  in (sample, position, channel) layout. Read entry by entry, each layer of either body is the same sum of products
  (the products commuted where the operands are swapped), so every row of either result array is the one function
  `Net.net` of that sample and the weights, and the two arrays are the one function `Net.G` of the arguments.
  No law used needs finiteness: only commutativity of the product and re-indexing of sums.
-/
import proofs.«174414_g2000105302243619_pallasbulk_1256_24_alg».proof.Defs
import proofs.«174414_g2000105302243619_pallasbulk_1256_24_alg».proof.Proof.Gen.Kernel
import proofs.«174414_g2000105302243619_pallasbulk_1256_24_alg».proof.Proof.Gen.Kernel.Skeleton
import proofs.«174414_g2000105302243619_pallasbulk_1256_24_alg».proof.Proof.Gen.Kernel.Launch
import proofs.«174414_g2000105302243619_pallasbulk_1256_24_alg».proof.Proof.Gen.Kernel.Points
import proofs.«174414_g2000105302243619_pallasbulk_1256_24_alg».proof.Proof.Gen.Kernel.Frame
import proofs.«174414_g2000105302243619_pallasbulk_1256_24_alg».proof.Proof.Gen.KernelIdeal
import proofs.«174414_g2000105302243619_pallasbulk_1256_24_alg».proof.Proof.Gen.KernelIdeal.Skeleton
import proofs.«174414_g2000105302243619_pallasbulk_1256_24_alg».proof.Proof.Gen.KernelIdeal.Launch
import proofs.«174414_g2000105302243619_pallasbulk_1256_24_alg».proof.Proof.Gen.KernelIdeal.Points
import proofs.«174414_g2000105302243619_pallasbulk_1256_24_alg».proof.Proof.Gen.KernelIdeal.Frame
import proofs.«174414_g2000105302243619_pallasbulk_1256_24_alg».proof.Proof.Gen.ReferenceIdeal
import proofs.«174414_g2000105302243619_pallasbulk_1256_24_alg».proof.Proof.Gen.ReferenceIdeal.Skeleton
import proofs.«174414_g2000105302243619_pallasbulk_1256_24_alg».proof.Proof.Gen.ReferenceIdeal.Launch
import proofs.«174414_g2000105302243619_pallasbulk_1256_24_alg».proof.Proof.Gen.ReferenceIdeal.Points
import proofs.«174414_g2000105302243619_pallasbulk_1256_24_alg».proof.Proof.Gen.ReferenceIdeal.Frame
import proofs.«174414_g2000105302243619_pallasbulk_1256_24_alg».proof.Proof.Gen.Pre_finite_inputs
import Idealize.ShloMosaic.Adequacy
import Idealize.ShloMosaic.Init
import proofs.«174414_g2000105302243619_pallasbulk_1256_24_alg».proof.Proof.KValue
import proofs.«174414_g2000105302243619_pallasbulk_1256_24_alg».proof.Proof.RValue

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference, itself one kernel launch, runs and leaves its arguments unchanged. -/
theorem frame_referenceIdeal : Cert.frame_ReferenceIdeal := fun m ρ _ => Cert.ReferenceIdeal.Gen.frame m ρ

/-- The idealization rewrote nothing. -/
theorem preserves : Cert.preserves_Kernel_KernelIdeal := trivial

/-- Both idealized programs end with the result array at the network's function of their arguments, and the arguments
    agree. -/
theorem algebraic : Cert.algebraic_KernelIdeal_ReferenceIdeal := by
  intro m ρ m' ρ' _ hagree
  refine ⟨fun c => Cert.KernelIdeal.RegVal.Gm m c, Cert.KernelIdeal.RegVal.run m ρ, ?_⟩
  refine (θ_run Cert.ReferenceIdeal.defs _ _).mono (fun _ h c => ⟨(h c).1.trans ?_, (h c).2⟩)
    (Cert.ReferenceIdeal.RegVal.run m' ρ')
  obtain ⟨a0, a1, a2, a3, a4, a5, a6, a7, a8, a9, a10⟩ := hagree c
  show Cert.ReferenceIdeal.RegVal.Gm m' c = Cert.KernelIdeal.RegVal.Gm m c
  dsimp only [Cert.ReferenceIdeal.RegVal.Gm, Cert.KernelIdeal.RegVal.Gm]
  rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
